-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072 : Shape := ⟨1, ![131072]⟩
abbrev S10000x256 : Shape := ⟨2, ![10000, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S131072 : S_.BroadcastsInDim S131072 (![] : Fin 0 → Fin S131072.rank)
  reducesTo_S131072_S_d0 : S131072.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S131072x256 .f32) (main_arg1 : IVec S131072 32) (main_arg2 : FVec F S10000x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S10000x256 .f32 := Host.absf main_arg2
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_c_2 : IVec S_ 32 := constantI S_ 32 0#32
  let main_v9 : IVec S131072 32 := broadcastInDim S131072 ![] bcast_S_S131072 main_c_2
  let main_v10 : IVec S131072 1 := cmpi .sge main_arg1 main_v9
  let main_c_3 : IVec S_ 1 := constantI S_ 1 1#1
  let main_v11 : IVec S_ 1 := (fun x v => Host.reduce IntOp.andi x v reducesTo_S131072_S_d0 h_S_) main_v10 main_c_3
  let main_v12 : IVec S_ 1 := andi main_v8 main_v11
  let main_c_4 : IVec S_ 32 := constantI S_ 32 10000#32
  let main_v13 : IVec S131072 32 := broadcastInDim S131072 ![] bcast_S_S131072 main_c_4
  let main_v14 : IVec S131072 1 := cmpi .slt main_arg1 main_v13
  let main_c_5 : IVec S_ 1 := constantI S_ 1 1#1
  let main_v15 : IVec S_ 1 := (fun x v => Host.reduce IntOp.andi x v reducesTo_S131072_S_d0 h_S_) main_v14 main_c_5
  fn_part1 (F := F) main_v12 main_v15
-- ==== Kernel.lean ====
abbrev S131072x256 : Shape := ⟨2, ![131072, 256]⟩
abbrev S131072 : Shape := ⟨1, ![131072]⟩
abbrev S10000x256 : Shape := ⟨2, ![10000, 256]⟩
abbrev S256x1x512 : Shape := ⟨3, ![256, 1, 512]⟩
abbrev S2x10112x256 : Shape := ⟨3, ![2, 10112, 256]⟩
abbrev S2x1x10112 : Shape := ⟨3, ![2, 1, 10112]⟩
abbrev S512x256 : Shape := ⟨2, ![512, 256]⟩
abbrev S1x1x512 : Shape := ⟨3, ![1, 1, 512]⟩
abbrev S1x10112x256 : Shape := ⟨3, ![1, 10112, 256]⟩
abbrev S1x1x10112 : Shape := ⟨3, ![1, 1, 10112]⟩
abbrev S10112x256 : Shape := ⟨2, ![10112, 256]⟩
abbrev S1x10112 : Shape := ⟨2, ![1, 10112]⟩
abbrev S1x512 : Shape := ⟨2, ![1, 512]⟩
abbrev S2528x1 : Shape := ⟨2, ![2528, 1]⟩
abbrev S2528x512 : Shape := ⟨2, ![2528, 512]⟩
abbrev S2528x256 : Shape := ⟨2, ![2528, 256]⟩
abbrev S1x2528x256 : Shape := ⟨3, ![1, 2528, 256]⟩
abbrev S1x2528 : Shape := ⟨2, ![1, 2528]⟩
abbrev S1x1x2528 : Shape := ⟨3, ![1, 1, 2528]⟩
abbrev S_ : Shape := ⟨0, ![]⟩
abbrev S1x10000 : Shape := ⟨2, ![1, 10000]⟩
abbrev S10000 : Shape := ⟨1, ![10000]⟩
abbrev S10000x1 : Shape := ⟨2, ![10000, 1]⟩

abbrev nBuf : Space → Nat
  | .hbm => 27
  | .vmem => 8
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S10000x256, .f32⟩
  | .hbm, ⟨3, _⟩ => ⟨S131072x256, .bf16⟩
  | .hbm, ⟨4, _⟩ => ⟨S256x1x512, .i32⟩
  | .hbm, ⟨5, _⟩ => ⟨S2x10112x256, .f32⟩
  | .hbm, ⟨6, _⟩ => ⟨S2x1x10112, .f32⟩
  | .hbm, ⟨7, _⟩ => ⟨S_, .f32⟩
  | .hbm, ⟨8, _⟩ => ⟨S10112x256, .f32⟩
  | .hbm, ⟨9, _⟩ => ⟨S10000x256, .f32⟩
  | .hbm, ⟨10, _⟩ => ⟨S_, .f32⟩
  | .hbm, ⟨11, _⟩ => ⟨S1x10112, .f32⟩
  | .hbm, ⟨12, _⟩ => ⟨S1x10000, .f32⟩
  | .hbm, ⟨13, _⟩ => ⟨S10000, .f32⟩
  | .hbm, ⟨14, _⟩ => ⟨S10000x1, .f32⟩
  | .hbm, ⟨15, _⟩ => ⟨S_, .f32⟩
  | .hbm, ⟨16, _⟩ => ⟨S10000x1, .f32⟩
  | .hbm, ⟨17, _⟩ => ⟨S10000x1, .f32⟩
  | .hbm, ⟨18, _⟩ => ⟨S_, .f32⟩
  | .hbm, ⟨19, _⟩ => ⟨S10000x1, .f32⟩
  | .hbm, ⟨20, _⟩ => ⟨S10000x1, .f32⟩
  | .hbm, ⟨21, _⟩ => ⟨S10000x256, .f32⟩
  | .hbm, ⟨22, _⟩ => ⟨S10000x256, .f32⟩
  | .hbm, ⟨23, _⟩ => ⟨S_, .f32⟩
  | .hbm, ⟨24, _⟩ => ⟨S10000x256, .f32⟩
  | .hbm, ⟨25, _⟩ => ⟨S10000x256, .f32⟩
  | .hbm, ⟨26, _⟩ => ⟨S10000x256, .f32⟩
  | .local _ .vmem, ⟨0, _⟩ => ⟨S512x256, .bf16⟩
  | .local _ .vmem, ⟨1, _⟩ => ⟨S512x256, .bf16⟩
  | .local _ .vmem, ⟨2, _⟩ => ⟨S1x1x512, .i32⟩
  | .local _ .vmem, ⟨3, _⟩ => ⟨S1x1x512, .i32⟩
  | .local _ .vmem, ⟨4, _⟩ => ⟨S1x10112x256, .f32⟩
  | .local _ .vmem, ⟨5, _⟩ => ⟨S1x10112x256, .f32⟩
  | .local _ .vmem, ⟨6, _⟩ => ⟨S1x1x10112, .f32⟩
  | .local _ .vmem, ⟨7, _⟩ => ⟨S1x1x10112, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x10112x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x10112 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  shapeCasts_S131072_S256x1x512 : S131072.ShapeCasts S256x1x512
  inb_S1x10112x256_S1x10112x256_0_0_0 : ∀ a, (![0, 0, 0] : Fin 3 → Nat) a + S1x10112x256.size a ≤ S1x10112x256.size a
  h_S1x10112x256 : 0 < S1x10112x256.numel
  shapeCasts_S1x10112x256_S10112x256 : S1x10112x256.ShapeCasts S10112x256
  shapeCasts_S10112x256_S1x10112x256 : S10112x256.ShapeCasts S1x10112x256
  inb_S1x1x10112_S1x1x10112_0_0_0 : ∀ a, (![0, 0, 0] : Fin 3 → Nat) a + S1x1x10112.size a ≤ S1x1x10112.size a
  h_S1x1x10112 : 0 < S1x1x10112.numel
  shapeCasts_S1x1x10112_S1x10112 : S1x1x10112.ShapeCasts S1x10112
  shapeCasts_S1x10112_S1x1x10112 : S1x10112.ShapeCasts S1x1x10112
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S2528x1_d0_w32 : S2528x1.Iotas .tc 32 [0]
  broadcasts_S2528x1_S2528x512 : S2528x1.Broadcasts S2528x512
  broadcasts_S1x512_S2528x512 : S1x512.Broadcasts S2528x512
  natLt_1_32 : 1 < 32
  inb_S1x10112x256_S1x2528x256_0_0_0 : ∀ a, (![0, 0, 0] : Fin 3 → Nat) a + S1x2528x256.size a ≤ S1x10112x256.size a
  h_S1x2528x256 : 0 < S1x2528x256.numel
  shapeCasts_S1x2528x256_S2528x256 : S1x2528x256.ShapeCasts S2528x256
  shapeCasts_S2528x256_S1x2528x256 : S2528x256.ShapeCasts S1x2528x256
  inb_S1x1x10112_S1x1x2528_0_0_0 : ∀ a, (![0, 0, 0] : Fin 3 → Nat) a + S1x1x2528.size a ≤ S1x1x10112.size a
  h_S1x1x2528 : 0 < S1x1x2528.numel
  shapeCasts_S1x1x2528_S1x2528 : S1x1x2528.ShapeCasts S1x2528
  shapeCasts_S1x2528_S1x1x2528 : S1x2528.ShapeCasts S1x1x2528
  inb_S1x10112x256_S1x2528x256_0_2528_0 : ∀ a, (![0, 2528, 0] : Fin 3 → Nat) a + S1x2528x256.size a ≤ S1x10112x256.size a
  inb_S1x1x10112_S1x1x2528_0_0_2528 : ∀ a, (![0, 0, 2528] : Fin 3 → Nat) a + S1x1x2528.size a ≤ S1x1x10112.size a
  inb_S1x10112x256_S1x2528x256_0_5056_0 : ∀ a, (![0, 5056, 0] : Fin 3 → Nat) a + S1x2528x256.size a ≤ S1x10112x256.size a
  inb_S1x1x10112_S1x1x2528_0_0_5056 : ∀ a, (![0, 0, 5056] : Fin 3 → Nat) a + S1x1x2528.size a ≤ S1x1x10112.size a
  inb_S1x10112x256_S1x2528x256_0_7584_0 : ∀ a, (![0, 7584, 0] : Fin 3 → Nat) a + S1x2528x256.size a ≤ S1x10112x256.size a
  inb_S1x1x10112_S1x1x2528_0_0_7584 : ∀ a, (![0, 0, 7584] : Fin 3 → Nat) a + S1x1x2528.size a ≤ S1x1x10112.size a
  reducesTo_S2x10112x256_S10112x256_d0 : S2x10112x256.ReducesTo [0] S10112x256
  h_S_ : 0 < S_.numel
  slices_S10112x256_S10000x256_0_0 : S10112x256.Slices ![0, 0] S10000x256
  reducesTo_S2x1x10112_S1x10112_d0 : S2x1x10112.ReducesTo [0] S1x10112
  slices_S1x10112_S1x10000_0_0 : S1x10112.Slices ![0, 0] S1x10000
  shapeCasts_S1x10000_S10000 : S1x10000.ShapeCasts S10000
  shapeCasts_S10000_S10000x1 : S10000.ShapeCasts S10000x1
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  dot_S2528x512_S512x256_S2528x256_1_0_0_1_n_n_wf : DotDims.WF S2528x512 S512x256 S2528x256 [1] [0] [0] [1] [] []
  dot_S1x512_S2528x512_S1x2528_1_1_0_0_n_n_wf : DotDims.WF S1x512 S2528x512 S1x2528 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S131072x256.size a
  hwx0_0 : ∀ i : grid0.Coords, EltTy.bits .bf16 = 32 ∨ (Rect.block (s := S131072x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S256x1x512.size a
  hwx0_1 : ∀ i : grid0.Coords, EltTy.bits .i32 = 32 ∨ (Rect.block (s := S256x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x10112x256.size a ≤ S2x10112x256.size a
  hwx0_2 : ∀ i : grid0.Coords, EltTy.bits .f32 = 32 ∨ (Rect.block (s := S2x10112x256) S1x10112x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x10112.size a ≤ S2x1x10112.size a
  hwx0_3 : ∀ i : grid0.Coords, EltTy.bits .f32 = 32 ∨ (Rect.block (s := S2x1x10112) S1x1x10112.size (cc0_transform_3 i) (hinb0_3 i)).WholeWords (EltTy.packing .f32)

variable [Facts₀]

def dot_S2528x512_S512x256_S2528x256_1_0_0_1_n_n : DotDims S2528x512 S512x256 S2528x256 where
  lhsContracting := [1]
  rhsContracting := [0]
  lhsNonContracting := [0]
  rhsNonContracting := [1]
  lhsBatch := []
  rhsBatch := []
  wf := dot_S2528x512_S512x256_S2528x256_1_0_0_1_n_n_wf
def dot_S1x512_S2528x512_S1x2528_1_1_0_0_n_n : DotDims S1x512 S2528x512 S1x2528 where
  lhsContracting := [1]
  rhsContracting := [1]
  lhsNonContracting := [0]
  rhsNonContracting := [0]
  lhsBatch := []
  rhsBatch := []
  wf := dot_S1x512_S2528x512_S1x2528_1_1_0_0_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x10112x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x10112.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072 : Shape := ⟨1, ![131072]⟩
abbrev S10000x256 : Shape := ⟨2, ![10000, 256]⟩
abbrev S_ : Shape := ⟨0, ![]⟩
abbrev S131072x1 : Shape := ⟨2, ![131072, 1]⟩

abbrev nBuf : Space → Nat
  | .hbm => 25
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072, .i32⟩
  | .hbm, ⟨2, _⟩ => ⟨S10000x256, .f32⟩
  | .hbm, ⟨3, _⟩ => ⟨S_, .i32⟩
  | .hbm, ⟨4, _⟩ => ⟨S131072, .i32⟩
  | .hbm, ⟨5, _⟩ => ⟨S131072, .i1⟩
  | .hbm, ⟨6, _⟩ => ⟨S_, .i32⟩
  | .hbm, ⟨7, _⟩ => ⟨S131072, .i32⟩
  | .hbm, ⟨8, _⟩ => ⟨S131072, .i32⟩
  | .hbm, ⟨9, _⟩ => ⟨S131072, .i32⟩
  | .hbm, ⟨10, _⟩ => ⟨S131072x1, .i32⟩
  | .hbm, ⟨11, _⟩ => ⟨S131072x256, .f32⟩
  | .hbm, ⟨12, _⟩ => ⟨S131072x256, .f32⟩
  | .hbm, ⟨13, _⟩ => ⟨S_, .f32⟩
  | .hbm, ⟨14, _⟩ => ⟨S131072x256, .f32⟩
  | .hbm, ⟨15, _⟩ => ⟨S131072x256, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S10000x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x256 : S_.BroadcastsInDim S131072x256 (![] : Fin 0 → Fin S131072x256.rank)
  gather_S10000x256_S131072x1_S131072x256_1_0_n_n_0_1_1256_wf : GatherDims.WF S10000x256 S131072x1 S131072x256 [1] [0] [] [0] [] 1 ![1, 256]
  scatter_S10000x256_S131072x1_S131072x256_1_0_0_1_wf : ScatterDims.WF S10000x256 S131072x1 S131072x256 [1] [0] [0] 1

variable [Facts₀]

def gather_S10000x256_S131072x1_S131072x256_1_0_n_n_0_1_1256 : GatherDims S10000x256 S131072x1 S131072x256 where
  offsetDims := [1]
  collapsedSliceDims := [0]
  operandBatchingDims := []
  startIndicesBatchingDims := []
  startIndexMap := [0]
  indexVectorDim := 1
  sliceSizes := ![1, 256]
  wf := gather_S10000x256_S131072x1_S131072x256_1_0_n_n_0_1_1256_wf
def scatter_S10000x256_S131072x1_S131072x256_1_0_0_1 : ScatterDims S10000x256 S131072x1 S131072x256 where
  updateWindowDims := [1]
  insertedWindowDims := [0]
  scatterDimsToOperandDims := [0]
  indexVectorDim := 1
  wf := scatter_S10000x256_S131072x1_S131072x256_1_0_0_1_wf

class Facts : Prop extends Facts₀ where

variable [Facts]
-- ==== Proof.Spec.lean ====
/-
  The center update both programs compute, as functions of the three argument arrays: features `X : [131072, 256]`,
  labels `lab : [131072]` (32-bit words) and centers `Cn : [10000, 256]`, with the one float literal both share,
  `step` (the f32 nearest −0.1).

  The reference adds, to row `r` of the centers, `step · (Cn[r, d] − X[i, d])` for every sample `i` labelled `r`
  (`refForm`). The kernel counts the samples labelled `r` (`cnt`), sums their feature rows (`seg`), and combines:
  `Cn[r, d] · (1 + step · cnt r) − step · seg r d` (`kernelForm`). Over finite entries and labels in `[0, 10000)`
  the two agree: distribute `step` over the difference and collect the `cnt r` copies of `Cn[r, d]`.
-/
import Idealize.ShloMosaic.PureOps.Ideal
import Idealize.ShloMosaic.Lib.ValueIdx

noncomputable section

open scoped BigOperators

namespace Cert.CenterEma

open Idealize.ShloMosaic Idealize.ShloMosaic.ValueIdx

/-- The features' shape, the labels' and the centers'. -/
abbrev SX : Shape := ⟨2, ![131072, 256]⟩
abbrev SL : Shape := ⟨1, ![131072]⟩
abbrev SC : Shape := ⟨2, ![10000, 256]⟩

/-- The literal both programs scale by: the f32 nearest −0.1, as an extended real. -/
abbrev step : EReal := Ideal.ofBits .f32 0xBDCCCCCD#32

/-- `1` when the label word `l` names row `r`, else `0`: one entry of the one-hot matrix. -/
def hit (r : ℕ) (l : BitVec 32) : EReal := if BitVec.ofNat 32 r = l then 1 else 0

/-- How many samples are labelled `r`. -/
def cnt (lab : SL.Idx → BitVec 32) (r : ℕ) : EReal := ∑ i : Fin 131072, hit r (lab (ix1 i))

/-- The sum of feature column `d` over the samples labelled `r`. -/
def seg (X : SX.Idx → EReal) (lab : SL.Idx → BitVec 32) (r : ℕ) (d : Fin 256) : EReal :=
  ∑ i : Fin 131072, hit r (lab (ix1 i)) * X (ix2 i d)

/-- The kernel's arrangement: histogram and segment sum first, one combine per center entry. -/
def kernelForm (X : SX.Idx → EReal) (lab : SL.Idx → BitVec 32) (Cn : SC.Idx → EReal) : SC.Idx → EReal :=
  fun j => Cn j * (1 + step * cnt lab (j 0).val) - step * seg X lab (j 0).val (j 1)

/-- The reference's arrangement: every sample labelled `r` adds its own scaled difference to row `r`. -/
def refForm (X : SX.Idx → EReal) (lab : SL.Idx → BitVec 32) (Cn : SC.Idx → EReal) : SC.Idx → EReal :=
  fun j => Cn j + ∑ i : Fin 131072,
    if (lab (ix1 i)).toInt = ((j 0).val : ℤ) then step * (Cn j - X (ix2 i (j 1))) else 0

/-- Every label names a center row. -/
def LabelsInRange (lab : SL.Idx → BitVec 32) : Prop := ∀ i : Fin 131072, 0 ≤ (lab (ix1 i)).toInt ∧ (lab (ix1 i)).toInt < 10000

/-- Every entry of an array is a real number. -/
def AllReal {s : Shape} (x : s.Idx → EReal) : Prop := ∀ i, ∃ v : ℝ, x i = (v : EReal)

end Cert.CenterEma

end
-- ==== Proof.KDefs.lean ====
/-
  Names for the kernel side's value: the argument arrays on a core, the feature tile and label tile a grid point reads,
  what a point adds to each accumulator (`add2`, `add3`), and the accumulators after point `n` in closed form
  (`acc2`, `acc3`): the zero block the core's first point stores plus the contributions of the core's points so far —
  point `n` belongs to core `n / 128`, whose points so far are `n − n % 128, …, n`. The two result arrays (`arr2`,
  `arr3`) hold, per core, the accumulators after the core's last point.
-/
import proofs.«419548_j59416577573137_3_alg».proof.Proof.Spec
import proofs.«419548_j59416577573137_3_alg».proof.Proof.Gen.KernelIdeal.Frame

set_option maxRecDepth 16384

noncomputable section

open scoped BigOperators

namespace Cert.CenterEma.K

open Idealize.ShloMosaic Idealize.ShloMosaic.TcCoe Idealize.SL.Sem Idealize.ShloMosaic.ValueIdx
open Cert.KernelIdeal Cert.KernelIdeal.Gen Cert.CenterEma

variable (m : (ℓ : Loc nD τ sig) → Buf (Elt Ideal) ℓ) (c : Dev nD)

/-- The three argument arrays as core `c` holds them at launch. -/
abbrev argX : SX.Idx → EReal := m ((c : Thread nD τ).loc main_arg0)
abbrev argL : SL.Idx → BitVec 32 := m ((c : Thread nD τ).loc main_arg1)
abbrev argC : SC.Idx → EReal := m ((c : Thread nD τ).loc main_arg2)

/-- The feature tile (512 rows) and the label tile (512 labels) grid point `t` reads. -/
abbrev tileX (t : Fin cfg0.N) : Vec Ideal S512x256 .bf16 := iblk m c 0 t
abbrev tileL (t : Fin cfg0.N) : Vec Ideal S1x1x512 .i32 := iblk m c 1 t

/-- The grid has 256 points; sample `k` of tile `t` is sample `512 t + k` of the batch. -/
theorem sample_lt (t : Fin cfg0.N) (k : Fin 512) : t.val * 512 + k.val < 131072 := by
  have hN : t.val < 256 := lt_of_lt_of_eq t.isLt (show cfg0.N = 256 from N_0)
  have := k.isLt
  omega

/-- What point `t` adds to the segment-sum accumulator, and to the histogram. -/
def add2 (t : Fin cfg0.N) : Vec Ideal S1x10112x256 .f32 :=
  fun y => ∑ k : Fin 512, hit (y 1).val (tileL m c t (ix3 (0 : Fin 1) (0 : Fin 1) k)) * tileX m c t (ix2 k (y 2))
def add3 (t : Fin cfg0.N) : Vec Ideal S1x1x10112 .f32 :=
  fun y => ∑ k : Fin 512, hit (y 2).val (tileL m c t (ix3 (0 : Fin 1) (0 : Fin 1) k))

/-- The same for a natural number, nothing outside the grid. -/
def add2N (t : ℕ) : Vec Ideal S1x10112x256 .f32 := if h : t < cfg0.N then add2 m c ⟨t, h⟩ else fun _ => 0
def add3N (t : ℕ) : Vec Ideal S1x1x10112 .f32 := if h : t < cfg0.N then add3 m c ⟨t, h⟩ else fun _ => 0

/-- The accumulators after point `n`. -/
def acc2 (n : ℕ) : Vec Ideal S1x10112x256 .f32 :=
  fun y => k0_pay1 (F := Ideal) y + ∑ b ∈ Finset.range (n % 128 + 1), add2N m c (n - n % 128 + b) y
def acc3 (n : ℕ) : Vec Ideal S1x1x10112 .f32 :=
  fun y => k0_pay2 (F := Ideal) y + ∑ b ∈ Finset.range (n % 128 + 1), add3N m c (n - n % 128 + b) y

/-- The region's two result arrays: per core, the accumulators after the core's last point. -/
def arr2 : Vec Ideal S2x10112x256 .f32 :=
  fun i => acc2 m c ((i 0).val * 128 + 127) (ix3 (0 : Fin 1) (i 1) (i 2))
def arr3 : Vec Ideal S2x1x10112 .f32 :=
  fun i => acc3 m c ((i 0).val * 128 + 127) (ix3 (0 : Fin 1) (0 : Fin 1) (i 2))

end Cert.CenterEma.K

end
-- ==== Proof.Pay.lean ====
/-
  The kernel body's eight store payloads read at one index, at the ideal values.

  Each of the four row blocks (row offsets 0, 2528, 5056, 7584) builds a one-hot matrix `[2528, 512]`: entry `(r, k)` is
  `1` when the `k`-th label word equals the 32-bit word of `offset + r`, else `0` (`hit (offset + r) label`). The
  segment-sum payload adds to the accumulator block the product of the one-hot matrix with the feature block
  `[512, 256]`: at `(0, r, d)` it is `acc (0, r, d) + ∑ k, hit (offset + r) (label k) * feat (k, d)`. The histogram
  payload adds the product of a row of ones with the one-hot matrix, both contracted on their column axis: at
  `(0, 0, r)` it is `acc (0, 0, r) + ∑ k, hit (offset + r) (label k)`.

  The row word: the iota over axis 0 of `[2528, 1]` reads `BitVec.ofNat 32 r`, and adding the offset word gives
  `BitVec.ofNat 32 (offset + r)` (`BitVec.ofNat_add`, whatever the sizes). The comparison's bit, zero-extended to 32 bits
  and read as a signed integer, is `1` or `0`; the narrowing to bf16 is the identity on the extended reals.
-/
import proofs.«419548_j59416577573137_3_alg».proof.Proof.Spec
import proofs.«419548_j59416577573137_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.CenterEma.Pay

open Cert.CenterEma Idealize.ShloMosaic Idealize.ShloMosaic.ValueIdx Cert.KernelIdeal Cert.KernelIdeal.Gen

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot block whose rows start at the word `off`: entry `(r, k)` compares `rows r + off` with the `k`-th label. -/
def onehot (off : BitVec 32) (v31 : IVec S2528x1 32) (v4 : IVec S1x512 32) : FVec Ideal S2528x512 .bf16 :=
  truncf .bf16 (sitofp .f32 (extui 32 (cmpi .eq
    (broadcastTo S2528x512 (addi v31 (broadcast S2528x1 off)) broadcasts_S2528x1_S2528x512)
    (broadcastTo S2528x512 v4 broadcasts_S1x512_S2528x512)) natLt_1_32)) bitsLt_bf16_f32

theorem pay6_eq (v3 : Vec Ideal S1x1x512 .i32) :
    k0_pay6 (F := Ideal) v3 = onehot 0#32 (iota .tc S2528x1 32 [0] iota_S2528x1_d0_w32) (k0_pay3 v3) := rfl
theorem pay9_eq (v4 : IVec S1x512 32) (v31 : IVec S2528x1 32) :
    k0_pay9 (F := Ideal) v4 v31 = onehot 2528#32 v31 v4 := rfl
theorem pay12_eq (v4 : IVec S1x512 32) :
    k0_pay12 (F := Ideal) v4 = onehot 5056#32 (iota .tc S2528x1 32 [0] iota_S2528x1_d0_w32) v4 := rfl
theorem pay16_eq (v4 : IVec S1x512 32) :
    k0_pay16 (F := Ideal) v4 = onehot 7584#32 (iota .tc S2528x1 32 [0] iota_S2528x1_d0_w32) v4 := rfl

/-- The label row `[1, 512]` is the loaded `[1, 1, 512]` block with its leading unit axis dropped. -/
theorem pay3_apply (v3 : Vec Ideal S1x1x512 .i32) (k : Fin 512) :
    k0_pay3 v3 (ix2 (0 : Fin 1) k) = v3 (ix3 (0 : Fin 1) (0 : Fin 1) k) := by
  unfold k0_pay3
  exact shapeCast_1ab_ab_apply v3 _ 0 k

/-- Entry `(r, k)` of the one-hot block at row offset `n` is `1` when the `k`-th label names row `n + r`, else `0`:
    the row word is `r + n` as a 32-bit word, the comparison's bit widened and read as a signed integer is `1` or `0`. -/
theorem onehot_apply (n : ℕ) (v3 : Vec Ideal S1x1x512 .i32) (r : Fin 2528) (k : Fin 512) :
    onehot (BitVec.ofNat 32 n) (iota .tc S2528x1 32 [0] iota_S2528x1_d0_w32) (k0_pay3 v3) (ix2 r k)
      = hit (n + r.val) (v3 (ix3 (0 : Fin 1) (0 : Fin 1) k)) := by
  unfold onehot
  rw [truncf_apply, sitofp_apply, extui_apply]
  show Scalar.sitofp (F := Ideal) .f32 ((IntOp.cmpi .eq _ _).setWidth 32) = _
  rw [broadcastTo_a1_ab_apply, broadcastTo_1b_ab_apply]
  have h1 : addi (iota .tc S2528x1 32 [0] iota_S2528x1_d0_w32) (broadcast S2528x1 (BitVec.ofNat 32 n)) (ix2 r (0 : Fin 1))
      = BitVec.ofNat 32 (n + r.val) := by
    show IntOp.addi (iota .tc S2528x1 32 [0] iota_S2528x1_d0_w32 (ix2 r (0 : Fin 1))) (BitVec.ofNat 32 n) = _
    rw [iota_single_apply]
    show BitVec.ofNat 32 r.val + BitVec.ofNat 32 n = _
    rw [← BitVec.ofNat_add, Nat.add_comm]
  rw [h1, pay3_apply, Ideal.scalar_sitofp_def]
  unfold hit
  by_cases h : BitVec.ofNat 32 (n + r.val) = v3 (ix3 (0 : Fin 1) (0 : Fin 1) k)
  · rw [if_pos h, h]; simp [IntOp.cmpi]
  · rw [if_neg h]
    have hb : (BitVec.ofNat 32 (n + r.val) == v3 (ix3 (0 : Fin 1) (0 : Fin 1) k)) = false := beq_eq_false_iff_ne.mpr h
    simp [IntOp.cmpi, hb]

/-! ## The two products at an index -/

theorem lhs_seg_0 (j : S2528x256.Idx) (q : dot_S2528x512_S512x256_S2528x256_1_0_0_1_n_n.contr.Idx) :
    (dot_S2528x512_S512x256_S2528x256_1_0_0_1_n_n.lhsIdx j q 0).val = (j 0).val := rfl
theorem lhs_seg_1 (j : S2528x256.Idx) (q : dot_S2528x512_S512x256_S2528x256_1_0_0_1_n_n.contr.Idx) :
    (dot_S2528x512_S512x256_S2528x256_1_0_0_1_n_n.lhsIdx j q 1).val = (q ⟨0, by decide⟩).val := rfl
theorem rhs_seg_0 (j : S2528x256.Idx) (q : dot_S2528x512_S512x256_S2528x256_1_0_0_1_n_n.contr.Idx) :
    (dot_S2528x512_S512x256_S2528x256_1_0_0_1_n_n.rhsIdx j q 0).val = (q ⟨0, by decide⟩).val := rfl
theorem rhs_seg_1 (j : S2528x256.Idx) (q : dot_S2528x512_S512x256_S2528x256_1_0_0_1_n_n.contr.Idx) :
    (dot_S2528x512_S512x256_S2528x256_1_0_0_1_n_n.rhsIdx j q 1).val = (j 1).val := rfl

/-- The segment-sum product into the zero splat, at `(r, d)`: the sum over the 512 contracted columns. -/
theorem matmul_seg_apply (A : FVec Ideal S2528x512 .bf16) (B : FVec Ideal S512x256 .bf16) (r : Fin 2528) (d : Fin 256) :
    matmul dot_S2528x512_S512x256_S2528x256_1_0_0_1_n_n none A B (constant (F := Ideal) S2528x256 .f32 0x00000000#32) (ix2 r d)
      = ∑ k : Fin 512, A (ix2 r k) * B (ix2 k d) := by
  show FloatOps.matmul dot_S2528x512_S512x256_S2528x256_1_0_0_1_n_n none A B _ (ix2 r d) = _
  rw [Ideal.matmul_constant_zero_apply,
    ← Equiv.sum_comp (contrEquiv1 dot_S2528x512_S512x256_S2528x256_1_0_0_1_n_n 512 rfl rfl).symm]
  refine Finset.sum_congr rfl fun c _ => ?_
  have c2 := contrEquiv1_symm_val dot_S2528x512_S512x256_S2528x256_1_0_0_1_n_n 512 rfl rfl c
  have l2 : dot_S2528x512_S512x256_S2528x256_1_0_0_1_n_n.lhsIdx (ix2 r d)
      ((contrEquiv1 dot_S2528x512_S512x256_S2528x256_1_0_0_1_n_n 512 rfl rfl).symm c) = ix2 r c := by
    funext ax; apply Fin.ext
    match ax with
    | ⟨0, _⟩ => exact lhs_seg_0 _ _
    | ⟨1, _⟩ => exact (lhs_seg_1 _ _).trans c2
  have r2 : dot_S2528x512_S512x256_S2528x256_1_0_0_1_n_n.rhsIdx (ix2 r d)
      ((contrEquiv1 dot_S2528x512_S512x256_S2528x256_1_0_0_1_n_n 512 rfl rfl).symm c) = ix2 c d := by
    funext ax; apply Fin.ext
    match ax with
    | ⟨0, _⟩ => exact (rhs_seg_0 _ _).trans c2
    | ⟨1, _⟩ => exact rhs_seg_1 _ _
  rw [l2, r2]

theorem lhs_hist_0 (j : S1x2528.Idx) (q : dot_S1x512_S2528x512_S1x2528_1_1_0_0_n_n.contr.Idx) :
    (dot_S1x512_S2528x512_S1x2528_1_1_0_0_n_n.lhsIdx j q 0).val = (j 0).val := rfl
theorem lhs_hist_1 (j : S1x2528.Idx) (q : dot_S1x512_S2528x512_S1x2528_1_1_0_0_n_n.contr.Idx) :
    (dot_S1x512_S2528x512_S1x2528_1_1_0_0_n_n.lhsIdx j q 1).val = (q ⟨0, by decide⟩).val := rfl
theorem rhs_hist_0 (j : S1x2528.Idx) (q : dot_S1x512_S2528x512_S1x2528_1_1_0_0_n_n.contr.Idx) :
    (dot_S1x512_S2528x512_S1x2528_1_1_0_0_n_n.rhsIdx j q 0).val = (j 1).val := rfl
theorem rhs_hist_1 (j : S1x2528.Idx) (q : dot_S1x512_S2528x512_S1x2528_1_1_0_0_n_n.contr.Idx) :
    (dot_S1x512_S2528x512_S1x2528_1_1_0_0_n_n.rhsIdx j q 1).val = (q ⟨0, by decide⟩).val := rfl

/-- The histogram product into the zero splat, at `(0, r)`: both operands contract their column axis. -/
theorem matmul_hist_apply (A : FVec Ideal S1x512 .bf16) (B : FVec Ideal S2528x512 .bf16) (u : Fin 1) (r : Fin 2528) :
    matmul dot_S1x512_S2528x512_S1x2528_1_1_0_0_n_n none A B (constant (F := Ideal) S1x2528 .f32 0x00000000#32) (ix2 u r)
      = ∑ k : Fin 512, A (ix2 u k) * B (ix2 r k) := by
  show FloatOps.matmul dot_S1x512_S2528x512_S1x2528_1_1_0_0_n_n none A B _ (ix2 u r) = _
  rw [Ideal.matmul_constant_zero_apply,
    ← Equiv.sum_comp (contrEquiv1 dot_S1x512_S2528x512_S1x2528_1_1_0_0_n_n 512 rfl rfl).symm]
  refine Finset.sum_congr rfl fun c _ => ?_
  have c2 := contrEquiv1_symm_val dot_S1x512_S2528x512_S1x2528_1_1_0_0_n_n 512 rfl rfl c
  have l2 : dot_S1x512_S2528x512_S1x2528_1_1_0_0_n_n.lhsIdx (ix2 u r)
      ((contrEquiv1 dot_S1x512_S2528x512_S1x2528_1_1_0_0_n_n 512 rfl rfl).symm c) = ix2 u c := by
    funext ax; apply Fin.ext
    match ax with
    | ⟨0, _⟩ => exact lhs_hist_0 _ _
    | ⟨1, _⟩ => exact (lhs_hist_1 _ _).trans c2
  have r2 : dot_S1x512_S2528x512_S1x2528_1_1_0_0_n_n.rhsIdx (ix2 u r)
      ((contrEquiv1 dot_S1x512_S2528x512_S1x2528_1_1_0_0_n_n 512 rfl rfl).symm c) = ix2 r c := by
    funext ax; apply Fin.ext
    match ax with
    | ⟨0, _⟩ => exact rhs_hist_0 _ _
    | ⟨1, _⟩ => exact (rhs_hist_1 _ _).trans c2
  rw [l2, r2]

/-! ## The two store payloads, over any one-hot block -/

/-- The accumulator block plus the segment-sum product, stored back with its leading unit axis. -/
def segPay (A : FVec Ideal S2528x512 .bf16) (B : FVec Ideal S512x256 .bf16) (acc : Vec Ideal S1x2528x256 .f32) :
    FVec Ideal S1x2528x256 .f32 :=
  shapeCast S1x2528x256
    (addf (shapeCast S2528x256 acc shapeCasts_S1x2528x256_S2528x256)
      (matmul dot_S2528x512_S512x256_S2528x256_1_0_0_1_n_n none A B (constant (F := Ideal) S2528x256 .f32 0x00000000#32)))
    shapeCasts_S2528x256_S1x2528x256

theorem segPay_apply (A : FVec Ideal S2528x512 .bf16) (B : FVec Ideal S512x256 .bf16) (acc : Vec Ideal S1x2528x256 .f32)
    (r : Fin 2528) (d : Fin 256) :
    segPay A B acc (ix3 (0 : Fin 1) r d) = acc (ix3 (0 : Fin 1) r d) + ∑ k : Fin 512, A (ix2 r k) * B (ix2 k d) := by
  unfold segPay
  rw [shapeCast_ab_1ab_apply, addf_apply, shapeCast_1ab_ab_apply, matmul_seg_apply]

/-- The histogram block plus the row of ones times the one-hot block, stored back with its leading unit axis. -/
def histPay (O : FVec Ideal S1x512 .bf16) (B : FVec Ideal S2528x512 .bf16) (acc : Vec Ideal S1x1x2528 .f32) :
    FVec Ideal S1x1x2528 .f32 :=
  shapeCast S1x1x2528
    (addf (shapeCast S1x2528 acc shapeCasts_S1x1x2528_S1x2528)
      (matmul dot_S1x512_S2528x512_S1x2528_1_1_0_0_n_n none O B (constant (F := Ideal) S1x2528 .f32 0x00000000#32)))
    shapeCasts_S1x2528_S1x1x2528

theorem histPay_apply (O : FVec Ideal S1x512 .bf16) (B : FVec Ideal S2528x512 .bf16) (acc : Vec Ideal S1x1x2528 .f32)
    (r : Fin 2528) :
    histPay O B acc (ix3 (0 : Fin 1) (0 : Fin 1) r)
      = acc (ix3 (0 : Fin 1) (0 : Fin 1) r) + ∑ k : Fin 512, O (ix2 (0 : Fin 1) k) * B (ix2 r k) := by
  unfold histPay
  rw [shapeCast_ab_1ab_apply, addf_apply, shapeCast_1ab_ab_apply, matmul_hist_apply]

/-- The row of ones: the bf16 pattern `0x3F80` is `1`. -/
theorem pay5_apply (i : S1x512.Idx) : k0_pay5 (F := Ideal) i = 1 := by
  show Ideal.ofBits .bf16 0x3F80#16 = 1
  exact Ideal.ofBits_one_bf16

/-- The feature block's cast to its own shape is the block. -/
theorem pay4_eq (v5 : Vec Ideal S512x256 .bf16) : k0_pay4 (F := Ideal) v5 = v5 := by
  unfold k0_pay4
  exact shapeCast_self v5 _

theorem pay7_eq (v3 : Vec Ideal S1x1x512 .i32) (v5 : Vec Ideal S512x256 .bf16) (v18 : Vec Ideal S1x2528x256 .f32) :
    k0_pay7 (F := Ideal) v3 v5 v18 = segPay (k0_pay6 v3) (k0_pay4 v5) v18 := rfl
theorem pay10_eq (v4 : IVec S1x512 32) (v6 : FVec Ideal S512x256 .bf16) (v31 : IVec S2528x1 32) (v41 : Vec Ideal S1x2528x256 .f32) :
    k0_pay10 (F := Ideal) v4 v6 v31 v41 = segPay (k0_pay9 v4 v31) v6 v41 := rfl
theorem pay14_eq (v4 : IVec S1x512 32) (v6 : FVec Ideal S512x256 .bf16) (v64 : Vec Ideal S1x2528x256 .f32) :
    k0_pay14 (F := Ideal) (k0_pay13 v4 v6 v64) = segPay (k0_pay12 v4) v6 v64 := rfl
theorem pay17_eq (v4 : IVec S1x512 32) (v6 : FVec Ideal S512x256 .bf16) (v87 : Vec Ideal S1x2528x256 .f32) :
    k0_pay17 (F := Ideal) v4 v6 v87 = segPay (k0_pay16 v4) v6 v87 := rfl
theorem pay8_eq (v3 : Vec Ideal S1x1x512 .i32) (v25 : Vec Ideal S1x1x2528 .f32) :
    k0_pay8 (F := Ideal) v3 v25 = histPay (k0_pay5 (F := Ideal)) (k0_pay6 v3) v25 := rfl
theorem pay11_eq (v4 : IVec S1x512 32) (v7 : FVec Ideal S1x512 .bf16) (v31 : IVec S2528x1 32) (v48 : Vec Ideal S1x1x2528 .f32) :
    k0_pay11 (F := Ideal) v4 v7 v31 v48 = histPay v7 (k0_pay9 v4 v31) v48 := rfl
theorem pay15_eq (v7 : FVec Ideal S1x512 .bf16) (v62 : FVec Ideal S2528x512 .bf16) (v71 : Vec Ideal S1x1x2528 .f32) :
    k0_pay15 (F := Ideal) v7 v62 v71 = histPay v7 v62 v71 := rfl
theorem pay18_eq (v4 : IVec S1x512 32) (v7 : FVec Ideal S1x512 .bf16) (v94 : Vec Ideal S1x1x2528 .f32) :
    k0_pay18 (F := Ideal) v4 v7 v94 = histPay v7 (k0_pay16 v4) v94 := rfl

/-! ## The eight store payloads at an index -/

theorem pay7_apply (v3 : Vec Ideal S1x1x512 .i32) (v5 : Vec Ideal S512x256 .bf16) (v18 : Vec Ideal S1x2528x256 .f32) (r : Fin 2528) (d : Fin 256) :
    k0_pay7 (F := Ideal) v3 v5 v18 (ix3 (0 : Fin 1) r d)
      = v18 (ix3 (0 : Fin 1) r d) + ∑ k : Fin 512, hit r.val (v3 (ix3 (0 : Fin 1) (0 : Fin 1) k)) * v5 (ix2 k d) := by
  rw [pay7_eq, segPay_apply, pay4_eq, pay6_eq]
  refine congrArg (v18 (ix3 (0 : Fin 1) r d) + ·) (Finset.sum_congr rfl fun k _ => ?_)
  rw [show (0#32 : BitVec 32) = BitVec.ofNat 32 0 from rfl, onehot_apply, Nat.zero_add]

theorem pay10_apply (v3 : Vec Ideal S1x1x512 .i32) (v5 : Vec Ideal S512x256 .bf16) (v41 : Vec Ideal S1x2528x256 .f32) (r : Fin 2528) (d : Fin 256) :
    k0_pay10 (F := Ideal) (k0_pay3 v3) (k0_pay4 v5) (iota .tc S2528x1 32 [0] iota_S2528x1_d0_w32) v41 (ix3 (0 : Fin 1) r d)
      = v41 (ix3 (0 : Fin 1) r d) + ∑ k : Fin 512, hit (2528 + r.val) (v3 (ix3 (0 : Fin 1) (0 : Fin 1) k)) * v5 (ix2 k d) := by
  rw [pay10_eq, segPay_apply, pay4_eq, pay9_eq]
  refine congrArg (v41 (ix3 (0 : Fin 1) r d) + ·) (Finset.sum_congr rfl fun k _ => ?_)
  rw [show (2528#32 : BitVec 32) = BitVec.ofNat 32 2528 from rfl, onehot_apply]

theorem pay14_apply (v3 : Vec Ideal S1x1x512 .i32) (v5 : Vec Ideal S512x256 .bf16) (v64 : Vec Ideal S1x2528x256 .f32) (r : Fin 2528) (d : Fin 256) :
    k0_pay14 (F := Ideal) (k0_pay13 (k0_pay3 v3) (k0_pay4 v5) v64) (ix3 (0 : Fin 1) r d)
      = v64 (ix3 (0 : Fin 1) r d) + ∑ k : Fin 512, hit (5056 + r.val) (v3 (ix3 (0 : Fin 1) (0 : Fin 1) k)) * v5 (ix2 k d) := by
  rw [pay14_eq, segPay_apply, pay4_eq, pay12_eq]
  refine congrArg (v64 (ix3 (0 : Fin 1) r d) + ·) (Finset.sum_congr rfl fun k _ => ?_)
  rw [show (5056#32 : BitVec 32) = BitVec.ofNat 32 5056 from rfl, onehot_apply]

theorem pay17_apply (v3 : Vec Ideal S1x1x512 .i32) (v5 : Vec Ideal S512x256 .bf16) (v87 : Vec Ideal S1x2528x256 .f32) (r : Fin 2528) (d : Fin 256) :
    k0_pay17 (F := Ideal) (k0_pay3 v3) (k0_pay4 v5) v87 (ix3 (0 : Fin 1) r d)
      = v87 (ix3 (0 : Fin 1) r d) + ∑ k : Fin 512, hit (7584 + r.val) (v3 (ix3 (0 : Fin 1) (0 : Fin 1) k)) * v5 (ix2 k d) := by
  rw [pay17_eq, segPay_apply, pay4_eq, pay16_eq]
  refine congrArg (v87 (ix3 (0 : Fin 1) r d) + ·) (Finset.sum_congr rfl fun k _ => ?_)
  rw [show (7584#32 : BitVec 32) = BitVec.ofNat 32 7584 from rfl, onehot_apply]

theorem pay8_apply (v3 : Vec Ideal S1x1x512 .i32) (v25 : Vec Ideal S1x1x2528 .f32) (r : Fin 2528) :
    k0_pay8 (F := Ideal) v3 v25 (ix3 (0 : Fin 1) (0 : Fin 1) r)
      = v25 (ix3 (0 : Fin 1) (0 : Fin 1) r) + ∑ k : Fin 512, hit r.val (v3 (ix3 (0 : Fin 1) (0 : Fin 1) k)) := by
  rw [pay8_eq, histPay_apply, pay6_eq]
  refine congrArg (v25 (ix3 (0 : Fin 1) (0 : Fin 1) r) + ·) (Finset.sum_congr rfl fun k _ => ?_)
  rw [pay5_apply, one_mul, show (0#32 : BitVec 32) = BitVec.ofNat 32 0 from rfl, onehot_apply, Nat.zero_add]

theorem pay11_apply (v3 : Vec Ideal S1x1x512 .i32) (v48 : Vec Ideal S1x1x2528 .f32) (r : Fin 2528) :
    k0_pay11 (F := Ideal) (k0_pay3 v3) (k0_pay5 (F := Ideal)) (iota .tc S2528x1 32 [0] iota_S2528x1_d0_w32) v48 (ix3 (0 : Fin 1) (0 : Fin 1) r)
      = v48 (ix3 (0 : Fin 1) (0 : Fin 1) r) + ∑ k : Fin 512, hit (2528 + r.val) (v3 (ix3 (0 : Fin 1) (0 : Fin 1) k)) := by
  rw [pay11_eq, histPay_apply, pay9_eq]
  refine congrArg (v48 (ix3 (0 : Fin 1) (0 : Fin 1) r) + ·) (Finset.sum_congr rfl fun k _ => ?_)
  rw [pay5_apply, one_mul, show (2528#32 : BitVec 32) = BitVec.ofNat 32 2528 from rfl, onehot_apply]

theorem pay15_apply (v3 : Vec Ideal S1x1x512 .i32) (v71 : Vec Ideal S1x1x2528 .f32) (r : Fin 2528) :
    k0_pay15 (F := Ideal) (k0_pay5 (F := Ideal)) (k0_pay12 (F := Ideal) (k0_pay3 v3)) v71 (ix3 (0 : Fin 1) (0 : Fin 1) r)
      = v71 (ix3 (0 : Fin 1) (0 : Fin 1) r) + ∑ k : Fin 512, hit (5056 + r.val) (v3 (ix3 (0 : Fin 1) (0 : Fin 1) k)) := by
  rw [pay15_eq, histPay_apply, pay12_eq]
  refine congrArg (v71 (ix3 (0 : Fin 1) (0 : Fin 1) r) + ·) (Finset.sum_congr rfl fun k _ => ?_)
  rw [pay5_apply, one_mul, show (5056#32 : BitVec 32) = BitVec.ofNat 32 5056 from rfl, onehot_apply]

theorem pay18_apply (v3 : Vec Ideal S1x1x512 .i32) (v94 : Vec Ideal S1x1x2528 .f32) (r : Fin 2528) :
    k0_pay18 (F := Ideal) (k0_pay3 v3) (k0_pay5 (F := Ideal)) v94 (ix3 (0 : Fin 1) (0 : Fin 1) r)
      = v94 (ix3 (0 : Fin 1) (0 : Fin 1) r) + ∑ k : Fin 512, hit (7584 + r.val) (v3 (ix3 (0 : Fin 1) (0 : Fin 1) k)) := by
  rw [pay18_eq, histPay_apply, pay16_eq]
  refine congrArg (v94 (ix3 (0 : Fin 1) (0 : Fin 1) r) + ·) (Finset.sum_congr rfl fun k _ => ?_)
  rw [pay5_apply, one_mul, show (7584#32 : BitVec 32) = BitVec.ofNat 32 7584 from rfl, onehot_apply]

end Cert.CenterEma.Pay

end
-- ==== Proof.Pieces.lean ====
/-
  What one grid point leaves in the two accumulators, read off the stores the body makes.

  The body covers the segment-sum block `[1, 10112, 256]` by four stores of 2528 rows each, and the histogram block
  `[1, 1, 10112]` by four stores of 2528 lanes each; every store writes "what the accumulator held there" plus that
  chunk's one-hot product with the point's feature tile (for the histogram: the one-hot rows' sums). So whatever the
  accumulators held (`xo`), the point leaves `xo + (this tile's contribution)` at every index: `upd2`, `upd3`. At the
  first point of a core the body first stores a zero block and reads it back chunk by chunk: the same with `xo` the
  zero block.
-/
import proofs.«419548_j59416577573137_3_alg».proof.Proof.Spec
import proofs.«419548_j59416577573137_3_alg».proof.Proof.Pay
import proofs.«419548_j59416577573137_3_alg».proof.Proof.Gen.KernelIdeal.Frame
import Idealize.ShloMosaic.Lib.Pipeline.Value
import Idealize.ShloMosaic.Lib.Pipeline.CanonAppend
import Idealize.ShloMosaic.Lib.Tactic

set_option maxRecDepth 16384

noncomputable section

open scoped BigOperators

namespace Cert.CenterEma.Pieces

open Idealize.ShloMosaic Idealize.ShloMosaic.TcCoe Idealize.SL.Sem Idealize.ShloMosaic.ValueIdx
open Cert.KernelIdeal Cert.KernelIdeal.Gen Cert.CenterEma

/-- The segment-sum accumulator after a point that found it at `xo`: each entry `(0, R, d)` gains the features of the
    tile's rows labelled `R`, column `d`. -/
def upd2 (xo : Vec Ideal S1x10112x256 .f32) (x0 : Vec Ideal S512x256 .bf16) (x1 : Vec Ideal S1x1x512 .i32) :
    Vec Ideal S1x10112x256 .f32 :=
  fun y => xo y + ∑ k : Fin 512, hit (y 1).val (x1 (ix3 (0 : Fin 1) (0 : Fin 1) k)) * x0 (ix2 k (y 2))

/-- The histogram after a point that found it at `xo`: entry `(0, 0, R)` gains the number of the tile's rows labelled `R`. -/
def upd3 (xo : Vec Ideal S1x1x10112 .f32) (x1 : Vec Ideal S1x1x512 .i32) : Vec Ideal S1x1x10112 .f32 :=
  fun y => xo y + ∑ k : Fin 512, hit (y 2).val (x1 (ix3 (0 : Fin 1) (0 : Fin 1) k))

/-- Row `r` of the chunk at row offset `o` is row `o + r` of the block. -/
theorem emb_rows (o : Nat) (inb : ∀ a, (![0, o, 0] : Fin 3 → Nat) a + S1x2528x256.size a ≤ S1x10112x256.size a)
    (r : Fin 2528) (d : Fin 256) (h : o + r.val < 10112) :
    (Rect.unit (s := S1x10112x256) ![0, o, 0] S1x2528x256.size inb).emb (ix3 (0 : Fin 1) r d)
      = ix3 (0 : Fin 1) (⟨o + r.val, h⟩ : Fin 10112) d := by
  funext a
  refine Fin.ext ?_
  match a with
  | ⟨0, _⟩ => rfl
  | ⟨1, _⟩ => show o + 1 * r.val = o + r.val; omega
  | ⟨2, _⟩ => show 0 + 1 * d.val = d.val; omega

/-- Lane `r` of the chunk at lane offset `o` is lane `o + r` of the block. -/
theorem emb_lanes (o : Nat) (inb : ∀ a, (![0, 0, o] : Fin 3 → Nat) a + S1x1x2528.size a ≤ S1x1x10112.size a)
    (r : Fin 2528) (h : o + r.val < 10112) :
    (Rect.unit (s := S1x1x10112) ![0, 0, o] S1x1x2528.size inb).emb (ix3 (0 : Fin 1) (0 : Fin 1) r)
      = ix3 (0 : Fin 1) (0 : Fin 1) (⟨o + r.val, h⟩ : Fin 10112) := by
  funext a
  refine Fin.ext ?_
  match a with
  | ⟨0, _⟩ => rfl
  | ⟨1, _⟩ => rfl
  | ⟨2, _⟩ => show o + 1 * r.val = o + r.val; omega

/-- An index whose row lies in `[o, o + 2528)` is in the chunk at row offset `o`. -/
theorem mem_rows (o : Nat) (inb : ∀ a, (![0, o, 0] : Fin 3 → Nat) a + S1x2528x256.size a ≤ S1x10112x256.size a)
    (y : S1x10112x256.Idx) (h : o ≤ (y 1).val ∧ (y 1).val < o + 2528) :
    y ∈ (Rect.unit (s := S1x10112x256) ![0, o, 0] S1x2528x256.size inb).set := by
  rw [Rect.mem_set_unit]
  intro a
  have h0 : (y 0).val < 1 := (y 0).isLt
  have h2 : (y 2).val < 256 := (y 2).isLt
  match a with
  | ⟨0, _⟩ => show 0 ≤ (y 0).val ∧ (y 0).val < 0 + 1; omega
  | ⟨1, _⟩ => show o ≤ (y 1).val ∧ (y 1).val < o + 2528; exact h
  | ⟨2, _⟩ => show 0 ≤ (y 2).val ∧ (y 2).val < 0 + 256; omega

/-- An index whose lane lies in `[o, o + 2528)` is in the chunk at lane offset `o`. -/
theorem mem_lanes (o : Nat) (inb : ∀ a, (![0, 0, o] : Fin 3 → Nat) a + S1x1x2528.size a ≤ S1x1x10112.size a)
    (y : S1x1x10112.Idx) (h : o ≤ (y 2).val ∧ (y 2).val < o + 2528) :
    y ∈ (Rect.unit (s := S1x1x10112) ![0, 0, o] S1x1x2528.size inb).set := by
  rw [Rect.mem_set_unit]
  intro a
  have h0 : (y 0).val < 1 := (y 0).isLt
  have h1 : (y 1).val < 1 := (y 1).isLt
  match a with
  | ⟨0, _⟩ => show 0 ≤ (y 0).val ∧ (y 0).val < 0 + 1; omega
  | ⟨1, _⟩ => show 0 ≤ (y 1).val ∧ (y 1).val < 0 + 1; omega
  | ⟨2, _⟩ => show o ≤ (y 2).val ∧ (y 2).val < o + 2528; exact h

section Chunks

/-- The four chunk stores of the segment-sum block, each over a load `l_q` that reads `xo` at its own chunk, leave
    `upd2 xo` at every index — whatever stores were made before them. -/
theorem chunks2 (xo : Vec Ideal S1x10112x256 .f32) (x0 : Vec Ideal S512x256 .bf16) (x1 : Vec Ideal S1x1x512 .i32)
    (l0 l1 l2 l3 : Vec Ideal S1x2528x256 .f32)
    (h0 : ∀ x, l0 x = xo ((Rect.unit (s := S1x10112x256) ![0, 0, 0] S1x2528x256.size inb_S1x10112x256_S1x2528x256_0_0_0).emb x))
    (h1 : ∀ x, l1 x = xo ((Rect.unit (s := S1x10112x256) ![0, 2528, 0] S1x2528x256.size inb_S1x10112x256_S1x2528x256_0_2528_0).emb x))
    (h2 : ∀ x, l2 x = xo ((Rect.unit (s := S1x10112x256) ![0, 5056, 0] S1x2528x256.size inb_S1x10112x256_S1x2528x256_0_5056_0).emb x))
    (h3 : ∀ x, l3 x = xo ((Rect.unit (s := S1x10112x256) ![0, 7584, 0] S1x2528x256.size inb_S1x10112x256_S1x2528x256_0_7584_0).emb x))
    (L' : List (View.Piece (Elt Ideal) S1x10112x256 .f32)) (y : S1x10112x256.Idx) :
    View.canon
      ([(⟨Rect.unit (s := S1x10112x256) ![0, 7584, 0] S1x2528x256.size inb_S1x10112x256_S1x2528x256_0_7584_0,
            k0_pay17 (F := Ideal) (k0_pay3 x1) (k0_pay4 x0) l3⟩ : View.Piece (Elt Ideal) S1x10112x256 .f32),
        ⟨Rect.unit (s := S1x10112x256) ![0, 5056, 0] S1x2528x256.size inb_S1x10112x256_S1x2528x256_0_5056_0,
            k0_pay14 (F := Ideal) (k0_pay13 (k0_pay3 x1) (k0_pay4 x0) l2)⟩,
        ⟨Rect.unit (s := S1x10112x256) ![0, 2528, 0] S1x2528x256.size inb_S1x10112x256_S1x2528x256_0_2528_0,
            k0_pay10 (F := Ideal) (k0_pay3 x1) (k0_pay4 x0) (iota .tc S2528x1 32 [0] iota_S2528x1_d0_w32) l1⟩,
        ⟨Rect.unit (s := S1x10112x256) ![0, 0, 0] S1x2528x256.size inb_S1x10112x256_S1x2528x256_0_0_0,
            k0_pay7 (F := Ideal) x1 x0 l0⟩] ++ L') y
      = upd2 xo x0 x1 y := by
  refine View.canon_append_of_pieces (upd2 xo x0 x1) L' _ ?_ y ?_
  · intro p hp x
    simp only [List.mem_cons, List.mem_nil_iff, or_false] at hp
    rcases hp with rfl | rfl | rfl | rfl
    · obtain ⟨a, r, d, rfl⟩ : ∃ (a : Fin 1) (r : Fin 2528) (d : Fin 256), x = ix3 a r d := ⟨x 0, x 1, x 2, eq_ix3 x⟩
      obtain rfl : a = 0 := Subsingleton.elim _ _
      have hr : 7584 + r.val < 10112 := by have := r.isLt; omega
      show k0_pay17 (F := Ideal) (k0_pay3 x1) (k0_pay4 x0) l3 (ix3 (0 : Fin 1) r d) = upd2 xo x0 x1 _
      rw [Pay.pay17_apply, h3, emb_rows 7584 _ r d hr]
      rfl
    · obtain ⟨a, r, d, rfl⟩ : ∃ (a : Fin 1) (r : Fin 2528) (d : Fin 256), x = ix3 a r d := ⟨x 0, x 1, x 2, eq_ix3 x⟩
      obtain rfl : a = 0 := Subsingleton.elim _ _
      have hr : 5056 + r.val < 10112 := by have := r.isLt; omega
      show k0_pay14 (F := Ideal) (k0_pay13 (k0_pay3 x1) (k0_pay4 x0) l2) (ix3 (0 : Fin 1) r d) = upd2 xo x0 x1 _
      rw [Pay.pay14_apply, h2, emb_rows 5056 _ r d hr]
      rfl
    · obtain ⟨a, r, d, rfl⟩ : ∃ (a : Fin 1) (r : Fin 2528) (d : Fin 256), x = ix3 a r d := ⟨x 0, x 1, x 2, eq_ix3 x⟩
      obtain rfl : a = 0 := Subsingleton.elim _ _
      have hr : 2528 + r.val < 10112 := by have := r.isLt; omega
      show k0_pay10 (F := Ideal) (k0_pay3 x1) (k0_pay4 x0) (iota .tc S2528x1 32 [0] iota_S2528x1_d0_w32) l1 (ix3 (0 : Fin 1) r d) = upd2 xo x0 x1 _
      rw [Pay.pay10_apply, h1, emb_rows 2528 _ r d hr]
      rfl
    · obtain ⟨a, r, d, rfl⟩ : ∃ (a : Fin 1) (r : Fin 2528) (d : Fin 256), x = ix3 a r d := ⟨x 0, x 1, x 2, eq_ix3 x⟩
      obtain rfl : a = 0 := Subsingleton.elim _ _
      have hr : 0 + r.val < 10112 := by have := r.isLt; omega
      show k0_pay7 (F := Ideal) x1 x0 l0 (ix3 (0 : Fin 1) r d) = upd2 xo x0 x1 _
      rw [Pay.pay7_apply, h0, emb_rows 0 _ r d hr]
      show _ = xo _ + ∑ k : Fin 512, hit (0 + r.val) _ * _
      rw [show hit (0 + r.val) = hit r.val from by rw [Nat.zero_add]]
  · have hy : (y 1).val < 10112 := (y 1).isLt
    by_cases c3 : 7584 ≤ (y 1).val
    · exact ⟨_, List.Mem.head _, mem_rows 7584 inb_S1x10112x256_S1x2528x256_0_7584_0 y ⟨c3, by omega⟩⟩
    by_cases c2 : 5056 ≤ (y 1).val
    · exact ⟨_, List.Mem.tail _ (List.Mem.head _), mem_rows 5056 inb_S1x10112x256_S1x2528x256_0_5056_0 y ⟨c2, by omega⟩⟩
    by_cases c1 : 2528 ≤ (y 1).val
    · exact ⟨_, List.Mem.tail _ (List.Mem.tail _ (List.Mem.head _)), mem_rows 2528 inb_S1x10112x256_S1x2528x256_0_2528_0 y ⟨c1, by omega⟩⟩
    · exact ⟨_, List.Mem.tail _ (List.Mem.tail _ (List.Mem.tail _ (List.Mem.head _))), mem_rows 0 inb_S1x10112x256_S1x2528x256_0_0_0 y ⟨Nat.zero_le _, by omega⟩⟩

/-- The four chunk stores of the histogram block, each over a load `l_q` that reads `xo` at its own chunk, leave
    `upd3 xo` at every index — whatever stores were made before them. -/
theorem chunks3 (xo : Vec Ideal S1x1x10112 .f32) (x1 : Vec Ideal S1x1x512 .i32)
    (l0 l1 l2 l3 : Vec Ideal S1x1x2528 .f32)
    (h0 : ∀ x, l0 x = xo ((Rect.unit (s := S1x1x10112) ![0, 0, 0] S1x1x2528.size inb_S1x1x10112_S1x1x2528_0_0_0).emb x))
    (h1 : ∀ x, l1 x = xo ((Rect.unit (s := S1x1x10112) ![0, 0, 2528] S1x1x2528.size inb_S1x1x10112_S1x1x2528_0_0_2528).emb x))
    (h2 : ∀ x, l2 x = xo ((Rect.unit (s := S1x1x10112) ![0, 0, 5056] S1x1x2528.size inb_S1x1x10112_S1x1x2528_0_0_5056).emb x))
    (h3 : ∀ x, l3 x = xo ((Rect.unit (s := S1x1x10112) ![0, 0, 7584] S1x1x2528.size inb_S1x1x10112_S1x1x2528_0_0_7584).emb x))
    (L' : List (View.Piece (Elt Ideal) S1x1x10112 .f32)) (y : S1x1x10112.Idx) :
    View.canon
      ([(⟨Rect.unit (s := S1x1x10112) ![0, 0, 7584] S1x1x2528.size inb_S1x1x10112_S1x1x2528_0_0_7584,
            k0_pay18 (F := Ideal) (k0_pay3 x1) (k0_pay5 (F := Ideal)) l3⟩ : View.Piece (Elt Ideal) S1x1x10112 .f32),
        ⟨Rect.unit (s := S1x1x10112) ![0, 0, 5056] S1x1x2528.size inb_S1x1x10112_S1x1x2528_0_0_5056,
            k0_pay15 (F := Ideal) (k0_pay5 (F := Ideal)) (k0_pay12 (F := Ideal) (k0_pay3 x1)) l2⟩,
        ⟨Rect.unit (s := S1x1x10112) ![0, 0, 2528] S1x1x2528.size inb_S1x1x10112_S1x1x2528_0_0_2528,
            k0_pay11 (F := Ideal) (k0_pay3 x1) (k0_pay5 (F := Ideal)) (iota .tc S2528x1 32 [0] iota_S2528x1_d0_w32) l1⟩,
        ⟨Rect.unit (s := S1x1x10112) ![0, 0, 0] S1x1x2528.size inb_S1x1x10112_S1x1x2528_0_0_0,
            k0_pay8 (F := Ideal) x1 l0⟩] ++ L') y
      = upd3 xo x1 y := by
  refine View.canon_append_of_pieces (upd3 xo x1) L' _ ?_ y ?_
  · intro p hp x
    simp only [List.mem_cons, List.mem_nil_iff, or_false] at hp
    rcases hp with rfl | rfl | rfl | rfl
    · obtain ⟨a, b, r, rfl⟩ : ∃ (a : Fin 1) (b : Fin 1) (r : Fin 2528), x = ix3 a b r := ⟨x 0, x 1, x 2, eq_ix3 x⟩
      obtain rfl : a = 0 := Subsingleton.elim _ _
      obtain rfl : b = 0 := Subsingleton.elim _ _
      have hr : 7584 + r.val < 10112 := by have := r.isLt; omega
      show k0_pay18 (F := Ideal) (k0_pay3 x1) (k0_pay5 (F := Ideal)) l3 (ix3 (0 : Fin 1) (0 : Fin 1) r) = upd3 xo x1 _
      rw [Pay.pay18_apply, h3, emb_lanes 7584 _ r hr]
      rfl
    · obtain ⟨a, b, r, rfl⟩ : ∃ (a : Fin 1) (b : Fin 1) (r : Fin 2528), x = ix3 a b r := ⟨x 0, x 1, x 2, eq_ix3 x⟩
      obtain rfl : a = 0 := Subsingleton.elim _ _
      obtain rfl : b = 0 := Subsingleton.elim _ _
      have hr : 5056 + r.val < 10112 := by have := r.isLt; omega
      show k0_pay15 (F := Ideal) (k0_pay5 (F := Ideal)) (k0_pay12 (F := Ideal) (k0_pay3 x1)) l2 (ix3 (0 : Fin 1) (0 : Fin 1) r) = upd3 xo x1 _
      rw [Pay.pay15_apply, h2, emb_lanes 5056 _ r hr]
      rfl
    · obtain ⟨a, b, r, rfl⟩ : ∃ (a : Fin 1) (b : Fin 1) (r : Fin 2528), x = ix3 a b r := ⟨x 0, x 1, x 2, eq_ix3 x⟩
      obtain rfl : a = 0 := Subsingleton.elim _ _
      obtain rfl : b = 0 := Subsingleton.elim _ _
      have hr : 2528 + r.val < 10112 := by have := r.isLt; omega
      show k0_pay11 (F := Ideal) (k0_pay3 x1) (k0_pay5 (F := Ideal)) (iota .tc S2528x1 32 [0] iota_S2528x1_d0_w32) l1 (ix3 (0 : Fin 1) (0 : Fin 1) r) = upd3 xo x1 _
      rw [Pay.pay11_apply, h1, emb_lanes 2528 _ r hr]
      rfl
    · obtain ⟨a, b, r, rfl⟩ : ∃ (a : Fin 1) (b : Fin 1) (r : Fin 2528), x = ix3 a b r := ⟨x 0, x 1, x 2, eq_ix3 x⟩
      obtain rfl : a = 0 := Subsingleton.elim _ _
      obtain rfl : b = 0 := Subsingleton.elim _ _
      have hr : 0 + r.val < 10112 := by have := r.isLt; omega
      show k0_pay8 (F := Ideal) x1 l0 (ix3 (0 : Fin 1) (0 : Fin 1) r) = upd3 xo x1 _
      rw [Pay.pay8_apply, h0, emb_lanes 0 _ r hr]
      show _ = xo _ + ∑ k : Fin 512, hit (0 + r.val) _
      rw [show hit (0 + r.val) = hit r.val from by rw [Nat.zero_add]]
  · have hy : (y 2).val < 10112 := (y 2).isLt
    by_cases c3 : 7584 ≤ (y 2).val
    · exact ⟨_, List.Mem.head _, mem_lanes 7584 inb_S1x1x10112_S1x1x2528_0_0_7584 y ⟨c3, by omega⟩⟩
    by_cases c2 : 5056 ≤ (y 2).val
    · exact ⟨_, List.Mem.tail _ (List.Mem.head _), mem_lanes 5056 inb_S1x1x10112_S1x1x2528_0_0_5056 y ⟨c2, by omega⟩⟩
    by_cases c1 : 2528 ≤ (y 2).val
    · exact ⟨_, List.Mem.tail _ (List.Mem.tail _ (List.Mem.head _)), mem_lanes 2528 inb_S1x1x10112_S1x1x2528_0_0_2528 y ⟨c1, by omega⟩⟩
    · exact ⟨_, List.Mem.tail _ (List.Mem.tail _ (List.Mem.tail _ (List.Mem.head _))), mem_lanes 0 inb_S1x1x10112_S1x1x2528_0_0_0 y ⟨Nat.zero_le _, by omega⟩⟩

/-! ## The zero block read back through earlier chunk stores -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a box that one whole-block store covers reads that store's payload at the box's indices. -/
theorem readCov_whole {sig : RefSig} {κ : Kind} {sp : Space} {S : Shape} {e : EltTy}
    (v : View sig κ sp S e) {off : Fin S.rank → Nat} (h : off = fun _ => 0) (inb : ∀ a, off a + S.size a ≤ S.size a)
    (w : S.Idx → Elt Ideal e) (B : Rect S) :
    ∀ x, v.readCov [(⟨Rect.unit off S.size inb, w⟩ : View.Piece (Elt Ideal) S e)] B.toLoadRect x = w (B.emb x) := by
  intro x
  rw [View.readCov_eq_canon', View.canon_unit_zero h]
  rfl

/-- Later stores whose rectangles all miss the box do not change what the load reads of the whole-block store under them. -/
theorem readCov_through {sig : RefSig} {κ : Kind} {sp : Space} {S : Shape} {e : EltTy}
    (v : View sig κ sp S e) {off : Fin S.rank → Nat} (h : off = fun _ => 0) (inb : ∀ a, off a + S.size a ≤ S.size a)
    (w : S.Idx → Elt Ideal e) (B : Rect S) :
    ∀ (L : List (View.Piece (Elt Ideal) S e)), (∀ p ∈ L, Disjoint p.1.set B.toLoadRect.set) →
      ∀ x, v.readCov (L ++ [(⟨Rect.unit off S.size inb, w⟩ : View.Piece (Elt Ideal) S e)]) B.toLoadRect x = w (B.emb x)
  | [], _ => readCov_whole v h inb w B
  | p :: L, hd => by
    intro x
    rw [List.cons_append, View.readCov_cons_of_disjoint v p _ _ (hd p (List.Mem.head _))]
    exact readCov_through v h inb w B L (fun q hq => hd q (List.Mem.tail _ hq)) x

/-! ## The two cases of the body -/

/-- A point that is not the first of its core: the segment-sum accumulator gains the tile's contribution. -/
theorem outB2 (c : Dev nD) (i : grid0.Coords) (a2 : Memref sig .tc .vmem S512x256 .bf16) (h2 : a2.IsWhole)
    (a3 : Memref sig .tc .vmem S1x1x512 .i32) (h3 : a3.IsWhole) (a4 : Memref sig .tc .vmem S1x10112x256 .f32) (h4 : a4.IsWhole)
    (a5 : Memref sig .tc .vmem S1x1x10112 .f32) (h5 : a5.IsWhole) (hc : ¬cond0_0 i)
    (x0 : Vec Ideal S512x256 .bf16) (x1 : Vec Ideal S1x1x512 .i32) (xo2 : Vec Ideal S1x10112x256 .f32) (xo3 : Vec Ideal S1x1x10112 .f32) :
    out0_B_2 (F := Ideal) c i a2 h2 a3 h3 a4 h4 a5 h5 hc x0 x1 xo2 xo3 = upd2 xo2 x0 x1 := by
  unfold out0_B_2
  rw [View.read_writes_eq_canon _ _ _ (cover0_B_2 c i a2 h2 a3 h3 a4 h4 a5 h5 hc x0 x1 xo2 xo3)]
  unfold kernelRun0_B
  dsimp only
  sl_unfold_words
  simp only [View.readAt_eq_ld, h2.read_unread, h3.read_unread, h4.read_unread, View.ld_unit_zero (S := S1x1x512) hz3,
    View.ld_unit_zero (S := S512x256) hz2]
  funext y
  exact chunks2 xo2 x0 x1 _ _ _ _ (fun _ => rfl) (fun _ => rfl) (fun _ => rfl) (fun _ => rfl) [] y

/-- A point that is not the first of its core: the histogram gains the tile's label counts. -/
theorem outB3 (c : Dev nD) (i : grid0.Coords) (a2 : Memref sig .tc .vmem S512x256 .bf16) (h2 : a2.IsWhole)
    (a3 : Memref sig .tc .vmem S1x1x512 .i32) (h3 : a3.IsWhole) (a4 : Memref sig .tc .vmem S1x10112x256 .f32) (h4 : a4.IsWhole)
    (a5 : Memref sig .tc .vmem S1x1x10112 .f32) (h5 : a5.IsWhole) (hc : ¬cond0_0 i)
    (x0 : Vec Ideal S512x256 .bf16) (x1 : Vec Ideal S1x1x512 .i32) (xo2 : Vec Ideal S1x10112x256 .f32) (xo3 : Vec Ideal S1x1x10112 .f32) :
    out0_B_3 (F := Ideal) c i a2 h2 a3 h3 a4 h4 a5 h5 hc x0 x1 xo2 xo3 = upd3 xo3 x1 := by
  unfold out0_B_3
  rw [View.read_writes_eq_canon _ _ _ (cover0_B_3 c i a2 h2 a3 h3 a4 h4 a5 h5 hc x0 x1 xo2 xo3)]
  unfold kernelRun0_B
  dsimp only
  sl_unfold_words
  simp only [View.readAt_eq_ld, h3.read_unread, h5.read_unread, View.ld_unit_zero (S := S1x1x512) hz3]
  funext y
  exact chunks3 xo3 x1 _ _ _ _ (fun _ => rfl) (fun _ => rfl) (fun _ => rfl) (fun _ => rfl) [] y

/-- The first point of a core: the same over the zero block the body has just stored. -/
theorem outA2 (c : Dev nD) (i : grid0.Coords) (a2 : Memref sig .tc .vmem S512x256 .bf16) (h2 : a2.IsWhole)
    (a3 : Memref sig .tc .vmem S1x1x512 .i32) (h3 : a3.IsWhole) (a4 : Memref sig .tc .vmem S1x10112x256 .f32) (h4 : a4.IsWhole)
    (a5 : Memref sig .tc .vmem S1x1x10112 .f32) (h5 : a5.IsWhole) (hc : cond0_0 i)
    (x0 : Vec Ideal S512x256 .bf16) (x1 : Vec Ideal S1x1x512 .i32) :
    out0_A_2 (F := Ideal) c i a2 h2 a3 h3 a4 h4 a5 h5 hc x0 x1 = upd2 (k0_pay1 (F := Ideal)) x0 x1 := by
  unfold out0_A_2
  rw [View.read_writes_eq_canon _ _ _ (cover0_A_2 c i a2 h2 a3 h3 a4 h4 a5 h5 hc x0 x1)]
  unfold kernelRun0_A
  dsimp only
  sl_unfold_words
  simp only [View.readAt_eq_ld, h2.read_unread, h3.read_unread, View.ld_unit_zero (S := S1x1x512) hz3,
    View.ld_unit_zero (S := S512x256) hz2]
  funext y
  refine chunks2 (k0_pay1 (F := Ideal)) x0 x1 _ _ _ _ ?_ ?_ ?_ ?_ [_] y
  · exact readCov_through (S := S1x10112x256) a4.view hz3 inb_S1x10112x256_S1x10112x256_0_0_0 (k0_pay1 (F := Ideal))
      (Rect.unit (s := S1x10112x256) ![0, 0, 0] S1x2528x256.size inb_S1x10112x256_S1x2528x256_0_0_0) [] (fun p hp => absurd hp List.not_mem_nil)
  · exact readCov_through (S := S1x10112x256) a4.view hz3 inb_S1x10112x256_S1x10112x256_0_0_0 (k0_pay1 (F := Ideal))
      (Rect.unit (s := S1x10112x256) ![0, 2528, 0] S1x2528x256.size inb_S1x10112x256_S1x2528x256_0_2528_0) [_] (fun p hp => by
        simp only [List.mem_cons, List.mem_nil_iff, or_false] at hp
        rcases hp with rfl
        (dsimp only; exact Rect.unit_disjoint 1 (Or.inl (by decide))))
  · exact readCov_through (S := S1x10112x256) a4.view hz3 inb_S1x10112x256_S1x10112x256_0_0_0 (k0_pay1 (F := Ideal))
      (Rect.unit (s := S1x10112x256) ![0, 5056, 0] S1x2528x256.size inb_S1x10112x256_S1x2528x256_0_5056_0) [_, _] (fun p hp => by
        simp only [List.mem_cons, List.mem_nil_iff, or_false] at hp
        rcases hp with rfl | rfl <;> (dsimp only; exact Rect.unit_disjoint 1 (Or.inl (by decide))))
  · exact readCov_through (S := S1x10112x256) a4.view hz3 inb_S1x10112x256_S1x10112x256_0_0_0 (k0_pay1 (F := Ideal))
      (Rect.unit (s := S1x10112x256) ![0, 7584, 0] S1x2528x256.size inb_S1x10112x256_S1x2528x256_0_7584_0) [_, _, _] (fun p hp => by
        simp only [List.mem_cons, List.mem_nil_iff, or_false] at hp
        rcases hp with rfl | rfl | rfl <;> (dsimp only; exact Rect.unit_disjoint 1 (Or.inl (by decide))))

/-- The first point of a core: the histogram over the zero row the body has just stored. -/
theorem outA3 (c : Dev nD) (i : grid0.Coords) (a2 : Memref sig .tc .vmem S512x256 .bf16) (h2 : a2.IsWhole)
    (a3 : Memref sig .tc .vmem S1x1x512 .i32) (h3 : a3.IsWhole) (a4 : Memref sig .tc .vmem S1x10112x256 .f32) (h4 : a4.IsWhole)
    (a5 : Memref sig .tc .vmem S1x1x10112 .f32) (h5 : a5.IsWhole) (hc : cond0_0 i)
    (x0 : Vec Ideal S512x256 .bf16) (x1 : Vec Ideal S1x1x512 .i32) :
    out0_A_3 (F := Ideal) c i a2 h2 a3 h3 a4 h4 a5 h5 hc x0 x1 = upd3 (k0_pay2 (F := Ideal)) x1 := by
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h3.read_unread, View.ld_unit_zero (S := S1x1x512) hz3]
  funext y
  refine chunks3 (k0_pay2 (F := Ideal)) x1 _ _ _ _ ?_ ?_ ?_ ?_ [_] y
  · exact readCov_through (S := S1x1x10112) a5.view hz3 inb_S1x1x10112_S1x1x10112_0_0_0 (k0_pay2 (F := Ideal))
      (Rect.unit (s := S1x1x10112) ![0, 0, 0] S1x1x2528.size inb_S1x1x10112_S1x1x2528_0_0_0) [] (fun p hp => absurd hp List.not_mem_nil)
  · exact readCov_through (S := S1x1x10112) a5.view hz3 inb_S1x1x10112_S1x1x10112_0_0_0 (k0_pay2 (F := Ideal))
      (Rect.unit (s := S1x1x10112) ![0, 0, 2528] S1x1x2528.size inb_S1x1x10112_S1x1x2528_0_0_2528) [_] (fun p hp => by
        simp only [List.mem_cons, List.mem_nil_iff, or_false] at hp
        rcases hp with rfl
        (dsimp only; exact Rect.unit_disjoint 2 (Or.inl (by decide))))
  · exact readCov_through (S := S1x1x10112) a5.view hz3 inb_S1x1x10112_S1x1x10112_0_0_0 (k0_pay2 (F := Ideal))
      (Rect.unit (s := S1x1x10112) ![0, 0, 5056] S1x1x2528.size inb_S1x1x10112_S1x1x2528_0_0_5056) [_, _] (fun p hp => by
        simp only [List.mem_cons, List.mem_nil_iff, or_false] at hp
        rcases hp with rfl | rfl <;> (dsimp only; exact Rect.unit_disjoint 2 (Or.inl (by decide))))
  · exact readCov_through (S := S1x1x10112) a5.view hz3 inb_S1x1x10112_S1x1x10112_0_0_0 (k0_pay2 (F := Ideal))
      (Rect.unit (s := S1x1x10112) ![0, 0, 7584] S1x1x2528.size inb_S1x1x10112_S1x1x2528_0_0_7584) [_, _, _] (fun p hp => by
        simp only [List.mem_cons, List.mem_nil_iff, or_false] at hp
        rcases hp with rfl | rfl | rfl <;> (dsimp only; exact Rect.unit_disjoint 2 (Or.inl (by decide))))

end Chunks

end Cert.CenterEma.Pieces

end
-- ==== Proof.Chain.lean ====
/-
  The accumulators point by point. By induction on the grid point: at the first point of a core (n ≡ 0 mod 128) the body
  leaves the zero block plus that tile's contribution; at any other point it adds the tile's contribution to what the
  point before left. Both are the closed form `acc2` / `acc3`: the zero block plus the contributions of the core's
  points so far (one more term of the sum over `range (n % 128 + 1)`).
-/
import proofs.«419548_j59416577573137_3_alg».proof.Proof.KDefs
import proofs.«419548_j59416577573137_3_alg».proof.Proof.Pieces

set_option maxRecDepth 16384

noncomputable section

open scoped BigOperators

namespace Cert.CenterEma.Chain

open Idealize.ShloMosaic Idealize.ShloMosaic.TcCoe Idealize.SL.Sem Idealize.ShloMosaic.ValueIdx
open Cert.KernelIdeal Cert.KernelIdeal.Gen Cert.CenterEma Cert.CenterEma.K Cert.CenterEma.Pieces

variable (m : (ℓ : Loc nD τ sig) → Buf (Elt Ideal) ℓ) (c : Dev nD)

theorem add2N_of_lt (t : ℕ) (h : t < cfg0.N) : add2N m c t = add2 m c ⟨t, h⟩ := dif_pos h
theorem add3N_of_lt (t : ℕ) (h : t < cfg0.N) : add3N m c t = add3 m c ⟨t, h⟩ := dif_pos h

/-- The first point of a core: over the zero block, the sum so far has the one term. -/
theorem acc2_first (n : ℕ) (h : n < cfg0.N) (h0 : n % 128 = 0) :
    upd2 (k0_pay1 (F := Ideal)) (tileX m c ⟨n, h⟩) (tileL m c ⟨n, h⟩) = acc2 m c n := by
  funext y
  show k0_pay1 (F := Ideal) y + add2 m c ⟨n, h⟩ y
    = k0_pay1 (F := Ideal) y + ∑ b ∈ Finset.range (n % 128 + 1), add2N m c (n - n % 128 + b) y
  rw [h0, Nat.zero_add, Finset.sum_range_one, Nat.sub_zero, Nat.add_zero, add2N_of_lt m c n h]

theorem acc3_first (n : ℕ) (h : n < cfg0.N) (h0 : n % 128 = 0) :
    upd3 (k0_pay2 (F := Ideal)) (tileL m c ⟨n, h⟩) = acc3 m c n := by
  funext y
  show k0_pay2 (F := Ideal) y + add3 m c ⟨n, h⟩ y
    = k0_pay2 (F := Ideal) y + ∑ b ∈ Finset.range (n % 128 + 1), add3N m c (n - n % 128 + b) y
  rw [h0, Nat.zero_add, Finset.sum_range_one, Nat.sub_zero, Nat.add_zero, add3N_of_lt m c n h]

/-- A later point of a core: one more term. -/
theorem acc2_succ (n : ℕ) (h : n + 1 < cfg0.N) (h0 : ¬(n + 1) % 128 = 0) :
    upd2 (acc2 m c n) (tileX m c ⟨n + 1, h⟩) (tileL m c ⟨n + 1, h⟩) = acc2 m c (n + 1) := by
  have e1 : (n + 1) % 128 = n % 128 + 1 := by omega
  have e2 : n + 1 - (n + 1) % 128 = n - n % 128 := by omega
  have e3 : n - n % 128 + (n % 128 + 1) = n + 1 := by omega
  funext y
  show (k0_pay1 (F := Ideal) y + ∑ b ∈ Finset.range (n % 128 + 1), add2N m c (n - n % 128 + b) y) + add2 m c ⟨n + 1, h⟩ y
    = k0_pay1 (F := Ideal) y + ∑ b ∈ Finset.range ((n + 1) % 128 + 1), add2N m c (n + 1 - (n + 1) % 128 + b) y
  rw [e2, e1, Finset.sum_range_succ _ (n % 128 + 1), e3, add2N_of_lt m c (n + 1) h, add_assoc]

theorem acc3_succ (n : ℕ) (h : n + 1 < cfg0.N) (h0 : ¬(n + 1) % 128 = 0) :
    upd3 (acc3 m c n) (tileL m c ⟨n + 1, h⟩) = acc3 m c (n + 1) := by
  have e1 : (n + 1) % 128 = n % 128 + 1 := by omega
  have e2 : n + 1 - (n + 1) % 128 = n - n % 128 := by omega
  have e3 : n - n % 128 + (n % 128 + 1) = n + 1 := by omega
  funext y
  show (k0_pay2 (F := Ideal) y + ∑ b ∈ Finset.range (n % 128 + 1), add3N m c (n - n % 128 + b) y) + add3 m c ⟨n + 1, h⟩ y
    = k0_pay2 (F := Ideal) y + ∑ b ∈ Finset.range ((n + 1) % 128 + 1), add3N m c (n + 1 - (n + 1) % 128 + b) y
  rw [e2, e1, Finset.sum_range_succ _ (n % 128 + 1), e3, add3N_of_lt m c (n + 1) h, add_assoc]

/-- What the two staging buffers hold after point `n`: the closed forms. -/
theorem outsAt_eq : ∀ (n : ℕ) (h : n < cfg0.N), outsAt0 m c n h = (acc2 m c n, acc3 m c n)
  | 0, h => by
    rw [outsAt0_A m c ⟨0, h⟩ rfl]
    exact congrArg₂ Prod.mk
      ((outA2 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩)).trans
        (acc2_first m c 0 h rfl))
      ((outA3 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) ((hcond0_0 ⟨0, h⟩).mpr rfl) (iblk m c 0 ⟨0, h⟩) (iblk m c 1 ⟨0, h⟩)).trans
        (acc3_first m c 0 h rfl))
  | n + 1, h => by
    by_cases h0 : (n + 1) % 128 = 0
    · rw [outsAt0_A m c ⟨n + 1, h⟩ h0]
      exact congrArg₂ Prod.mk
        ((outA2 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) ((hcond0_0 ⟨n + 1, h⟩).mpr h0)
          (iblk m c 0 ⟨n + 1, h⟩) (iblk m c 1 ⟨n + 1, h⟩)).trans (acc2_first m c (n + 1) h h0))
        ((outA3 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) ((hcond0_0 ⟨n + 1, h⟩).mpr h0)
          (iblk m c 0 ⟨n + 1, h⟩) (iblk m c 1 ⟨n + 1, h⟩)).trans (acc3_first m c (n + 1) h h0))
    · have ih := outsAt_eq n (Nat.lt_of_succ_lt h)
      rw [outsAt0_B m c ⟨n + 1, h⟩ h0]
      refine congrArg₂ Prod.mk
        ((outB2 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (fun hh => h0 ((hcond0_0 ⟨n + 1, h⟩).mp hh))
          (iblk m c 0 ⟨n + 1, h⟩) (iblk m c 1 ⟨n + 1, h⟩) (outsAt0 m c n (Nat.lt_of_succ_lt h)).1 (outsAt0 m c n (Nat.lt_of_succ_lt h)).2).trans ?_)
        ((outB3 c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) (fun hh => h0 ((hcond0_0 ⟨n + 1, h⟩).mp hh))
          (iblk m c 0 ⟨n + 1, h⟩) (iblk m c 1 ⟨n + 1, h⟩) (outsAt0 m c n (Nat.lt_of_succ_lt h)).1 (outsAt0 m c n (Nat.lt_of_succ_lt h)).2).trans ?_)
      · rw [ih]; exact acc2_succ m c n h h0
      · rw [ih]; exact acc3_succ m c n h h0

end Cert.CenterEma.Chain

end
-- ==== Proof.Final.lean ====
/-
  The region's two result arrays. Each core flushes each of its two accumulator blocks once, after its last grid point
  `128 c' + 127`; block `c'` of the array is the accumulator then, and the two blocks cover the array.
-/
import proofs.«419548_j59416577573137_3_alg».proof.Proof.KDefs
import proofs.«419548_j59416577573137_3_alg».proof.Proof.Gen.KernelIdeal.Frame
import Idealize.ShloMosaic.Lib.Pipeline.Value
import Idealize.ShloMosaic.Lib.ValueIdx
import Idealize.ShloMosaic.Lib.Tactic

set_option maxRecDepth 16384

noncomputable section

open scoped BigOperators

namespace Cert.CenterEma.Final

open Cert.CenterEma Cert.CenterEma.K Cert.KernelIdeal Cert.KernelIdeal.Gen Idealize.ShloMosaic Idealize.ShloMosaic.TcCoe
open Idealize.SL.Sem Idealize.ShloMosaic.ValueIdx
open Idealize.ShloMosaic.Pipeline (Dat)

variable (m : (ℓ : Loc nD τ sig) → Buf (Elt Ideal) ℓ) (c : Dev nD)

/-- The block index of the segment sums' window at a grid point: the core, then zeros. -/
theorem idx_facts2 : ∀ t : Fin cfg0.N, win0_2.index t (0 : Fin 3) = t.val / 128
    ∧ win0_2.index t (1 : Fin 3) = 0 ∧ win0_2.index t (2 : Fin 3) = 0 :=
  (by decide +kernel : ∀ t : Fin grid0.N, _)
/-- The same for the histogram's window. -/
theorem idx_facts3 : ∀ t : Fin cfg0.N, win0_3.index t (0 : Fin 3) = t.val / 128
    ∧ win0_3.index t (1 : Fin 3) = 0 ∧ win0_3.index t (2 : Fin 3) = 0 :=
  (by decide +kernel : ∀ t : Fin grid0.N, _)

/-- The segment-sum array at an index of core `n / 128`'s block, `n` the core's last point. -/
theorem arr2_at (i : S2x10112x256.Idx) (n : ℕ) (y : S1x10112x256.Idx) (h0 : (i 0).val * 128 + 127 = n)
    (h1 : (i 1).val = (y 1).val) (h2 : (i 2).val = (y 2).val) : arr2 m c i = acc2 m c n y := by
  subst h0
  unfold arr2
  refine congrArg (acc2 m c ((i 0).val * 128 + 127)) ?_
  funext a; refine Fin.ext ?_
  match a with
  | ⟨0, _⟩ => exact (Subsingleton.elim (0 : Fin 1) (y 0)) ▸ rfl
  | ⟨1, _⟩ => exact h1
  | ⟨2, _⟩ => exact h2

/-- What a flushing point writes back of the segment sums is its block of the array. -/
theorem flushed2_eq (hch : ∀ (n : ℕ) (h : n < cfg0.N), outsAt0 m c n h = (acc2 m c n, acc3 m c n))
    (t : Fin cfg0.N) (hf : (cfg0.win 2).flush t = true) :
    (dats m 0 c).flushed 2 t = ((cfg0.win 2).blk t).view.read (Elt Ideal) (arr2 m c) := by
  have h127 : t.val % 128 = 127 := (flush0_2 t).mp hf
  obtain ⟨e0, e1, e2⟩ := idx_facts2 t
  show (cfg0.win 2).cut (grid0.coords t) ((dats m 0 c).after 2 t) = _
  rw [after0_2, hch t.val t.isLt]
  funext y
  show acc2 m c t.val y = arr2 m c (((cfg0.win 2).blk t).view.emb y)
  have hy0 : (y 0).val < 1 := (y 0).isLt
  refine (arr2_at m c _ t.val y ?_ ?_ ?_).symm
  · show (win0_2.index t (0 : Fin 3) * 1 + 1 * (y 0).val) * 128 + 127 = t.val
    rw [e0]; omega
  · show win0_2.index t (1 : Fin 3) * 10112 + 1 * (y 1).val = (y 1).val
    rw [e1]; omega
  · show win0_2.index t (2 : Fin 3) * 256 + 1 * (y 2).val = (y 2).val
    rw [e2]; omega

/-- An index of the segment-sum array is in point `t`'s block iff each coordinate is in the block's range on its axis. -/
theorem mem_blk2 (t : Fin cfg0.N) (i : S2x10112x256.Idx) :
    i ∈ ((cfg0.win 2).blk t).view.set ↔ ∀ a : Fin 3, win0_2.index t a * S1x10112x256.size a ≤ (i a).val
      ∧ (i a).val < win0_2.index t a * S1x10112x256.size a + S1x10112x256.size a := by
  show i ∈ ((View.whole main_v2_0).slice (win0_2.rect t)).set ↔ _
  rw [View.set_slice_whole, Rect.mem_set_unit]
  exact Iff.rfl

/-- Every index of the segment-sum array is in the block its core flushes after its last point. -/
theorem cover2 (i : S2x10112x256.Idx) :
    ∃ t : Fin cfg0.N, (cfg0.win 2).flush t = true ∧ i ∈ ((cfg0.win 2).blk t).view.set := by
  have hN : cfg0.N = 256 := N_0
  have hi0 : (i 0).val < 2 := (i 0).isLt
  have hi1 : (i 1).val < 10112 := (i 1).isLt
  have hi2 : (i 2).val < 256 := (i 2).isLt
  obtain ⟨t, ht⟩ : ∃ t : Fin cfg0.N, t.val = (i 0).val * 128 + 127 := ⟨⟨(i 0).val * 128 + 127, by rw [hN]; omega⟩, rfl⟩
  obtain ⟨e0, e1, e2⟩ := idx_facts2 t
  refine ⟨t, (flush0_2 t).mpr (by rw [ht]; omega), ?_⟩
  rw [mem_blk2]
  intro a
  match a with
  | ⟨0, _⟩ =>
    show win0_2.index t (0 : Fin 3) * 1 ≤ (i 0).val ∧ (i 0).val < win0_2.index t (0 : Fin 3) * 1 + 1
    rw [e0, ht]; omega
  | ⟨1, _⟩ =>
    show win0_2.index t (1 : Fin 3) * 10112 ≤ (i 1).val ∧ (i 1).val < win0_2.index t (1 : Fin 3) * 10112 + 10112
    rw [e1]; omega
  | ⟨2, _⟩ =>
    show win0_2.index t (2 : Fin 3) * 256 ≤ (i 2).val ∧ (i 2).val < win0_2.index t (2 : Fin 3) * 256 + 256
    rw [e2]; omega

/-- The segment-sum result array: core c' = i 0 flushes its block once, after its last point 128 c' + 127; block c' of the array [2, 10112, 256] is the accumulator then. -/
theorem final2 (hch : ∀ (n : ℕ) (h : n < cfg0.N), outsAt0 m c n h = (acc2 m c n, acc3 m c n)) :
    (dats m 0 c).arrAt 2 cfg0.N = arr2 m c :=
  (dats m 0 c).arrAt_eq_of_cover 2 (arr2 m c) (fun t hf => flushed2_eq m c hch t hf) (fun i => cover2 i)

/-! ## The histogram array, likewise -/

/-- The histogram array at an index of core `n / 128`'s block, `n` the core's last point. -/
theorem arr3_at (i : S2x1x10112.Idx) (n : ℕ) (y : S1x1x10112.Idx) (h0 : (i 0).val * 128 + 127 = n)
    (h2 : (i 2).val = (y 2).val) : arr3 m c i = acc3 m c n y := by
  subst h0
  unfold arr3
  refine congrArg (acc3 m c ((i 0).val * 128 + 127)) ?_
  funext a; refine Fin.ext ?_
  match a with
  | ⟨0, _⟩ => exact (Subsingleton.elim (0 : Fin 1) (y 0)) ▸ rfl
  | ⟨1, _⟩ => exact (Subsingleton.elim (0 : Fin 1) (y 1)) ▸ rfl
  | ⟨2, _⟩ => exact h2

/-- What a flushing point writes back of the histogram is its block of the array. -/
theorem flushed3_eq (hch : ∀ (n : ℕ) (h : n < cfg0.N), outsAt0 m c n h = (acc2 m c n, acc3 m c n))
    (t : Fin cfg0.N) (hf : (cfg0.win 3).flush t = true) :
    (dats m 0 c).flushed 3 t = ((cfg0.win 3).blk t).view.read (Elt Ideal) (arr3 m c) := by
  have h127 : t.val % 128 = 127 := (flush0_3 t).mp hf
  obtain ⟨e0, e1, e2⟩ := idx_facts3 t
  show (cfg0.win 3).cut (grid0.coords t) ((dats m 0 c).after 3 t) = _
  rw [after0_3, hch t.val t.isLt]
  funext y
  show acc3 m c t.val y = arr3 m c (((cfg0.win 3).blk t).view.emb y)
  have hy0 : (y 0).val < 1 := (y 0).isLt
  refine (arr3_at m c _ t.val y ?_ ?_).symm
  · show (win0_3.index t (0 : Fin 3) * 1 + 1 * (y 0).val) * 128 + 127 = t.val
    rw [e0]; omega
  · show win0_3.index t (2 : Fin 3) * 10112 + 1 * (y 2).val = (y 2).val
    rw [e2]; omega

/-- An index of the histogram array is in point `t`'s block iff each coordinate is in the block's range on its axis. -/
theorem mem_blk3 (t : Fin cfg0.N) (i : S2x1x10112.Idx) :
    i ∈ ((cfg0.win 3).blk t).view.set ↔ ∀ a : Fin 3, win0_3.index t a * S1x1x10112.size a ≤ (i a).val
      ∧ (i a).val < win0_3.index t a * S1x1x10112.size a + S1x1x10112.size a := by
  show i ∈ ((View.whole main_v2_1).slice (win0_3.rect t)).set ↔ _
  rw [View.set_slice_whole, Rect.mem_set_unit]
  exact Iff.rfl

/-- Every index of the histogram array is in the block its core flushes after its last point. -/
theorem cover3 (i : S2x1x10112.Idx) :
    ∃ t : Fin cfg0.N, (cfg0.win 3).flush t = true ∧ i ∈ ((cfg0.win 3).blk t).view.set := by
  have hN : cfg0.N = 256 := N_0
  have hi0 : (i 0).val < 2 := (i 0).isLt
  have hi1 : (i 1).val < 1 := (i 1).isLt
  have hi2 : (i 2).val < 10112 := (i 2).isLt
  obtain ⟨t, ht⟩ : ∃ t : Fin cfg0.N, t.val = (i 0).val * 128 + 127 := ⟨⟨(i 0).val * 128 + 127, by rw [hN]; omega⟩, rfl⟩
  obtain ⟨e0, e1, e2⟩ := idx_facts3 t
  refine ⟨t, (flush0_3 t).mpr (by rw [ht]; omega), ?_⟩
  rw [mem_blk3]
  intro a
  match a with
  | ⟨0, _⟩ =>
    show win0_3.index t (0 : Fin 3) * 1 ≤ (i 0).val ∧ (i 0).val < win0_3.index t (0 : Fin 3) * 1 + 1
    rw [e0, ht]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 10112 ≤ (i 2).val ∧ (i 2).val < win0_3.index t (2 : Fin 3) * 10112 + 10112
    rw [e2]; omega

/-- The histogram result array [2, 1, 10112], likewise. -/
theorem final3 (hch : ∀ (n : ℕ) (h : n < cfg0.N), outsAt0 m c n h = (acc2 m c n, acc3 m c n)) :
    (dats m 0 c).arrAt 3 cfg0.N = arr3 m c :=
  (dats m 0 c).arrAt_eq_of_cover 3 (arr3 m c) (fun t hf => flushed3_eq m c hch t hf) (fun i => cover3 i)

end Cert.CenterEma.Final

end
-- ==== Proof.Blocks.lean ====
/-
  What a grid point's two input tiles hold, in terms of the launch arrays.

  Grid point `t` (of 256) reads block `(t, 0)` of the narrowed features `[131072, 256]` in blocks of `[512, 256]`, and
  block `(t, 0, 0)` of the labels reshaped to `[256, 1, 512]` in blocks of `[1, 1, 512]`. A block's coordinate is the
  block index times the block size plus the coordinate inside the block, so row `k` of the feature tile is row
  `512 t + k` of the features — the narrowing to the 16-bit format is the identity on extended reals — and label `k` of
  the label tile is entry `(t, 0, k)` of the reshaped labels, which the row-major reshape reads at position `512 t + k`
  of the label vector.
-/
import proofs.«419548_j59416577573137_3_alg».proof.Proof.KDefs
import proofs.«419548_j59416577573137_3_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

open scoped BigOperators

namespace Cert.CenterEma.Blocks

open Cert.CenterEma Cert.CenterEma.K Cert.KernelIdeal Cert.KernelIdeal.Gen Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (c : Dev nD)

/-- The two input windows' index maps at grid point `t`: block `t` along the leading axis, block `0` along the others. -/
theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0)

/-- The features as the region finds them: the launch array narrowed to the 16-bit format. -/
theorem V_v0 : V m c main_v0
    = (truncf (F := Ideal) (s := S131072x256) .bf16 (m ((c : Thread nD τ).loc main_arg0)) bitsLt_bf16_f32 : FVec Ideal S131072x256 .bf16) := by
  show StableHlo.after hostOps0 (fun b => m (c, b)) (Proc.devRef .tc main_v0) = _
  after_results

/-- The labels as the region finds them: the launch vector reshaped to `[256, 1, 512]`. -/
theorem V_v1 : V m c main_v1
    = (shapeCast S256x1x512 (m ((c : Thread nD τ).loc main_arg1) : S131072.Idx → BitVec 32) shapeCasts_S131072_S256x1x512 : S256x1x512.Idx → BitVec 32) := by
  show StableHlo.after hostOps0 (fun b => m (c, b)) (Proc.devRef .tc main_v1) = _
  after_results
  rfl

/-- Row `k` of point `t`'s feature tile is sample `512 t + k` of the features (the host's conversion to the narrow format is the identity on extended reals). -/
theorem tileX_apply (t : Fin cfg0.N) (k : Fin 512) (d : Fin 256) :
    tileX m c t (ix2 k d) = argX m c (ix2 (⟨t.val * 512 + k.val, sample_lt t k⟩ : Fin 131072) d) := by
  have hi := idx_facts t
  show iblk m c 0 t (ix2 k d) = _
  unfold iblk
  rw [View.read_apply]
  show V m c main_v0 _ = _
  rw [V_v0, truncf_apply]
  congr 1
  funext a
  apply Fin.ext
  match a with
  | ⟨0, _⟩ => show win0_0.index t 0 * 512 + 1 * k.val = t.val * 512 + k.val; rw [hi.1]; omega
  | ⟨1, _⟩ => show win0_0.index t 1 * 256 + 1 * d.val = d.val; rw [hi.2.1]; omega

/-- The reshape `[131072] → [256, 1, 512]` is row-major: entry `(p, 0, q)` is the vector's entry `512 p + q`. -/
theorem reshape_apply (x : S131072.Idx → BitVec 32) (j : S256x1x512.Idx) (i : S131072.Idx)
    (h : (i 0).val = (j 0).val * 512 + (j 2).val) (h1 : (j 1).val = 0) :
    shapeCast S256x1x512 x shapeCasts_S131072_S256x1x512 j = x i := by
  refine shapeCast_apply x _ j i ?_
  rw [Shape.rowMajor_val_one, Shape.rowMajor_val_three]
  show (i 0).val = ((j 0).val * 1 + (j 1).val) * 512 + (j 2).val
  rw [h, h1]; omega

/-- Label `k` of point `t`'s label tile is the label of sample `512 t + k` (the host's reshape `[131072] → [256, 1, 512]` is row-major). -/
theorem tileL_apply (t : Fin cfg0.N) (k : Fin 512) :
    tileL m c t (ix3 (0 : Fin 1) (0 : Fin 1) k) = argL m c (ix1 (⟨t.val * 512 + k.val, sample_lt t k⟩ : Fin 131072)) := by
  have hi := idx_facts t
  show iblk m c 1 t (ix3 (0 : Fin 1) (0 : Fin 1) k) = _
  unfold iblk
  rw [View.read_apply]
  show V m c main_v1 _ = _
  rw [V_v1]
  refine reshape_apply _ _ _ ?_ ?_
  · show t.val * 512 + k.val = (win0_1.index t 0 * 1 + 1 * 0) * 512 + (win0_1.index t 2 * 512 + 1 * k.val)
    rw [hi.2.2.1, hi.2.2.2.2]; omega
  · show win0_1.index t 1 * 1 + 1 * 0 = 0
    rw [hi.2.2.2.1]

end Cert.CenterEma.Blocks

end
-- ==== Proof.Tail.lean ====
/-
  The host operations after the region, as one function of the two accumulator arrays the region leaves
  (`S2 : [2, 10112, 256]` the per-core segment sums, `S3 : [2, 1, 10112]` the per-core histograms) and the centers:
  sum each over the two cores, keep the first 10000 rows, and combine
  `Cn · (1 + step · count) − step · segsum`.
-/
import proofs.«419548_j59416577573137_3_alg».proof.Proof.Spec
import proofs.«419548_j59416577573137_3_alg».proof.Proof.Gen.KernelIdeal
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.CenterEma.Tail

open Idealize.ShloMosaic Idealize.ShloMosaic.ValueIdx Cert.KernelIdeal Cert.KernelIdeal.Gen Cert.CenterEma

variable {F : FTy → Type} [FloatOps F]

/-- The twenty host operations after the region, composed. -/
def tailTerm (S2 : FVec F S2x10112x256 .f32) (S3 : FVec F S2x1x10112 .f32) (Cn : FVec F S10000x256 .f32) :
    FVec F S10000x256 .f32 :=
  subf
    (mulf Cn (broadcastInDim S10000x256 ![0, 1] bcast_S10000x1_S10000x256_0_1
      (addf (broadcastInDim S10000x1 ![] bcast_S_S10000x1 (constant (F := F) S_ .f32 0x3F800000#32))
        (mulf (broadcastInDim S10000x1 ![] bcast_S_S10000x1 (constant (F := F) S_ .f32 0xBDCCCCCD#32))
          (shapeCast S10000x1 (shapeCast S10000 (extractStridedSlice S1x10000 ![0, 0]
            (Host.reduceAdd S3 (constant (F := F) S_ .f32 0x00000000#32) reducesTo_S2x1x10112_S1x10112_d0 h_S_)
            slices_S1x10112_S1x10000_0_0) shapeCasts_S1x10000_S10000) shapeCasts_S10000_S10000x1)))))
    (mulf (broadcastInDim S10000x256 ![] bcast_S_S10000x256 (constant (F := F) S_ .f32 0xBDCCCCCD#32))
      (extractStridedSlice S10000x256 ![0, 0]
        (Host.reduceAdd S2 (constant (F := F) S_ .f32 0x00000000#32) reducesTo_S2x10112x256_S10112x256_d0 h_S_)
        slices_S10112x256_S10000x256_0_0))

/-! ## The non-pointwise operations, each read at explicit coordinates -/

/-- The segment sums' shape with the cores' axis removed, with the witness that names the inserted coordinate. -/
theorem reduces_seg : S2x10112x256.Reduces [0] S10112x256 := by decide

/-- The histograms' shape with the cores' axis removed, likewise. -/
theorem reduces_cnt : S2x1x10112.Reduces [0] S1x10112 := by decide

/-- The sum over the two cores of the per-core segment sums, at row `a` and column `d`: zero plus the two entries. -/
theorem segSum_apply (S2 : FVec Ideal S2x10112x256 .f32) (a : Fin 10112) (d : Fin 256) :
    Host.reduceAdd S2 (constant (F := Ideal) S_ .f32 0x00000000#32) reducesTo_S2x10112x256_S10112x256_d0 h_S_ (ix2 a d)
      = S2 (ix3 (0 : Fin 2) a d) + S2 (ix3 (1 : Fin 2) a d) := by
  rw [hostReduceAdd_apply, Ideal.hostReduceAdd_single _ reduces_seg, constant_apply, Ideal.ofBits_zero_f32, zero_add]
  refine (Fin.sum_univ_two (f := fun k => S2 (reduces_seg.lift (ix2 a d) k))).trans ?_
  have e0 : reduces_seg.lift (ix2 a d) (0 : Fin 2) = ix3 (0 : Fin 2) a d := by
    funext c; match c with | ⟨0, _⟩ => rfl | ⟨1, _⟩ => rfl | ⟨2, _⟩ => rfl
  have e1 : reduces_seg.lift (ix2 a d) (1 : Fin 2) = ix3 (1 : Fin 2) a d := by
    funext c; match c with | ⟨0, _⟩ => rfl | ⟨1, _⟩ => rfl | ⟨2, _⟩ => rfl
  rw [e0, e1]

/-- The sum over the two cores of the per-core histograms, at `(u, a)`: zero plus the two entries. -/
theorem cntSum_apply (S3 : FVec Ideal S2x1x10112 .f32) (u : Fin 1) (a : Fin 10112) :
    Host.reduceAdd S3 (constant (F := Ideal) S_ .f32 0x00000000#32) reducesTo_S2x1x10112_S1x10112_d0 h_S_ (ix2 u a)
      = S3 (ix3 (0 : Fin 2) u a) + S3 (ix3 (1 : Fin 2) u a) := by
  rw [hostReduceAdd_apply, Ideal.hostReduceAdd_single _ reduces_cnt, constant_apply, Ideal.ofBits_zero_f32, zero_add]
  refine (Fin.sum_univ_two (f := fun k => S3 (reduces_cnt.lift (ix2 u a) k))).trans ?_
  have e0 : reduces_cnt.lift (ix2 u a) (0 : Fin 2) = ix3 (0 : Fin 2) u a := by
    funext c; match c with | ⟨0, _⟩ => rfl | ⟨1, _⟩ => rfl | ⟨2, _⟩ => rfl
  have e1 : reduces_cnt.lift (ix2 u a) (1 : Fin 2) = ix3 (1 : Fin 2) u a := by
    funext c; match c with | ⟨0, _⟩ => rfl | ⟨1, _⟩ => rfl | ⟨2, _⟩ => rfl
  rw [e0, e1]

/-- A vector of length `a` cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along its unit axis to `[a, b]` reads, at `(i, j)`, the operand at `(i, 0)`. -/
theorem bcastCol_apply {α : Type} (x : S10000x1.Idx → α) (i : Fin 10000) (j : Fin 256) :
    broadcastInDim S10000x256 ![0, 1] bcast_S10000x1_S10000x256_0_1 x (ix2 i j) = x (ix2 i (0 : Fin 1)) :=
  broadcastInDim_apply _ _ x _ _ (fun c => by
    match c with
    | ⟨0, _⟩ => rfl
    | ⟨1, _⟩ => rfl)

/-- Read at center entry `(r, d)`: the two cores' histogram entries for row `r` and segment-sum entries for `(r, d)`,
    added, then combined with the center. -/
theorem tailTerm_apply (S2 : FVec Ideal S2x10112x256 .f32) (S3 : FVec Ideal S2x1x10112 .f32)
    (Cn : FVec Ideal S10000x256 .f32) (r : Fin 10000) (d : Fin 256) :
    tailTerm (F := Ideal) S2 S3 Cn (ix2 r d)
      = Cn (ix2 r d) * (1 + step * (S3 (ix3 (0 : Fin 2) (0 : Fin 1) (⟨r.val, by omega⟩ : Fin 10112))
                                    + S3 (ix3 (1 : Fin 2) (0 : Fin 1) (⟨r.val, by omega⟩ : Fin 10112))))
        - step * (S2 (ix3 (0 : Fin 2) (⟨r.val, by omega⟩ : Fin 10112) d)
                  + S2 (ix3 (1 : Fin 2) (⟨r.val, by omega⟩ : Fin 10112) d)) := by
  unfold tailTerm
  rw [subf_apply, mulf_apply, mulf_apply, bcastCol_apply, addf_apply, mulf_apply,
    broadcastInDim_scalar_apply, broadcastInDim_scalar_apply, broadcastInDim_scalar_apply,
    constant_apply, constant_apply, Ideal.ofBits_one_f32,
    shapeCast_a_a1_apply, shapeCast_1a_a_apply,
    slice2_axis1_apply 0 _ slices_S1x10112_S1x10000_0_0 (0 : Fin 1) r (⟨r.val, by omega⟩ : Fin 10112) (Nat.zero_add _).symm,
    cntSum_apply,
    slice2_axis0_apply 0 _ slices_S10112x256_S10000x256_0_0 r d (⟨r.val, by omega⟩ : Fin 10112) (Nat.zero_add _).symm,
    segSum_apply]

end Cert.CenterEma.Tail

end
-- ==== Proof.Law.lean ====
/-
  The two arrangements of the center update agree over real entries and in-range labels, and a sum over the
  131072 samples splits into (core, batch tile, row in the tile).

  At one center entry (r, d), with C the old center value, x i the d-th feature of sample i, a the step and
  h i ∈ {0, 1} the indicator "sample i is labelled r":
      C + ∑ i, h i · (a · (C − x i))  =  C · (1 + a · ∑ i, h i) − a · ∑ i, h i · x i.
  All quantities are real, so the identity is proved in ℝ and transported along the coercion ℝ → EReal.
  The label test of the reference (signed value of the word equals r) and of the kernel (the word equals the
  32-bit encoding of r) coincide because the signed value lies in [0, 10000).
-/
import proofs.«419548_j59416577573137_3_alg».proof.Proof.Spec
import Mathlib.Data.EReal.Basic
import Mathlib.Data.EReal.Operations
import Mathlib.Logic.Equiv.Fin.Basic
import Mathlib.Algebra.BigOperators.Fin
import Mathlib.Algebra.BigOperators.Group.Finset.Basic
import Mathlib.Tactic.Ring

noncomputable section

open scoped BigOperators

namespace Cert.CenterEma.Law

open Cert.CenterEma Idealize.ShloMosaic Idealize.ShloMosaic.ValueIdx

/-- The step literal is a finite pattern, so it denotes a real number. -/
theorem step_real : ∃ a : ℝ, step = (a : EReal) := by
  refine ⟨step.toReal, (EReal.coe_toReal ?_ ?_).symm⟩ <;>
    simp [step, Ideal.ofBits, Ideal.ieee, -EReal.coe_mul]

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- For a word whose signed value is nonnegative, "the signed value is r" and "the word is the 32-bit
    encoding of r" say the same, when r < 10000. -/
theorem label_hit (l : BitVec 32) (r : ℕ) (hr : r < 10000) (h0 : 0 ≤ l.toInt) :
    l.toInt = (r : ℤ) ↔ BitVec.ofNat 32 r = l := by
  have hl : l.toNat < 2 ^ 32 := l.isLt
  have ht : l.toInt = (l.toNat : ℤ) := by
    rw [BitVec.toInt_eq_toNat_cond] at h0 ⊢
    split_ifs at h0 ⊢ with h
    · rfl
    · omega
  rw [ht]
  constructor
  · intro h
    apply BitVec.eq_of_toNat_eq
    rw [BitVec.toNat_ofNat]
    omega
  · intro h
    rw [← h, BitVec.toNat_ofNat]
    omega

/-- Over real entries and labels that name a center row, the reference's arrangement is the kernel's. -/
theorem forms_agree (X : SX.Idx → EReal) (lab : SL.Idx → BitVec 32) (Cn : SC.Idx → EReal)
    (hX : AllReal X) (hC : AllReal Cn) (hlab : LabelsInRange lab) : refForm X lab Cn = kernelForm X lab Cn := by
  funext j
  obtain ⟨a, ha⟩ := step_real
  obtain ⟨C, hCj⟩ := hC j
  choose x hx using hX
  have hr : (j 0).val < 10000 := (j 0).isLt
  -- the indicator of "sample i is labelled with row j 0", as a real
  let h : Fin 131072 → ℝ := fun i => if BitVec.ofNat 32 (j 0).val = lab (ix1 i) then 1 else 0
  have e1 : ∀ i : Fin 131072,
      (if (lab (ix1 i)).toInt = ((j 0).val : ℤ) then step * (Cn j - X (ix2 i (j 1))) else 0)
        = ((h i * (a * (C - x (ix2 i (j 1)))) : ℝ) : EReal) := by
    intro i
    have hiff := label_hit (lab (ix1 i)) (j 0).val hr (hlab i).1
    by_cases hc : BitVec.ofNat 32 (j 0).val = lab (ix1 i)
    · rw [if_pos (hiff.2 hc), ha, hCj, hx]
      simp [h, hc]
    · rw [if_neg (fun q => hc (hiff.1 q))]
      simp [h, hc]
  have e2 : ∀ i : Fin 131072, hit (j 0).val (lab (ix1 i)) = ((h i : ℝ) : EReal) := by
    intro i
    by_cases hc : BitVec.ofNat 32 (j 0).val = lab (ix1 i) <;> simp [hit, h, hc]
  have e3 : ∀ i : Fin 131072,
      hit (j 0).val (lab (ix1 i)) * X (ix2 i (j 1)) = ((h i * x (ix2 i (j 1)) : ℝ) : EReal) := by
    intro i
    rw [e2 i, hx, EReal.coe_mul]
  -- the identity over the reals
  have key : C + ∑ i, h i * (a * (C - x (ix2 i (j 1))))
      = C * (1 + a * ∑ i, h i) - a * ∑ i, h i * x (ix2 i (j 1)) := by
    have hs : ∑ i, h i * (a * (C - x (ix2 i (j 1))))
        = a * C * ∑ i, h i - a * ∑ i, h i * x (ix2 i (j 1)) := by
      rw [Finset.mul_sum, Finset.mul_sum, ← Finset.sum_sub_distrib]
      exact Finset.sum_congr rfl fun i _ => by ring
    rw [hs]; ring
  show Cn j + ∑ i : Fin 131072,
      (if (lab (ix1 i)).toInt = ((j 0).val : ℤ) then step * (Cn j - X (ix2 i (j 1))) else 0)
    = Cn j * (1 + step * ∑ i : Fin 131072, hit (j 0).val (lab (ix1 i)))
      - step * ∑ i : Fin 131072, hit (j 0).val (lab (ix1 i)) * X (ix2 i (j 1))
  rw [Finset.sum_congr rfl fun i _ => e1 i, Finset.sum_congr rfl fun i _ => e2 i,
    Finset.sum_congr rfl fun i _ => e3 i, ← coe_sum, ← coe_sum, ← coe_sum, hCj, ha,
    ← EReal.coe_add, ← EReal.coe_mul, ← EReal.coe_one, ← EReal.coe_add, ← EReal.coe_mul, ← EReal.coe_mul,
    ← EReal.coe_sub, key]

/-- A sum over the 131072 samples, split by core (2), batch tile (128) and row in the tile (512). -/
theorem sum_blocks {M : Type*} [AddCommMonoid M] (f : Fin 131072 → M) :
    ∑ i : Fin 131072, f i
      = ∑ c : Fin 2, ∑ b : Fin 128, ∑ k : Fin 512,
          f ⟨(c.val * 128 + b.val) * 512 + k.val, by have := c.isLt; have := b.isLt; have := k.isLt; omega⟩ := by
  -- (c, b) ↦ b + 128·c is a bijection onto the 256 tiles, (t, k) ↦ k + 512·t onto the samples
  let e : (Fin 2 × Fin 128) × Fin 512 ≃ Fin 131072 :=
    (Equiv.prodCongr (finProdFinEquiv (m := 2) (n := 128)) (Equiv.refl (Fin 512))).trans
      (finProdFinEquiv (m := 2 * 128) (n := 512))
  rw [← e.sum_comp f, Fintype.sum_prod_type, Fintype.sum_prod_type]
  refine Finset.sum_congr rfl fun c _ => Finset.sum_congr rfl fun b _ => Finset.sum_congr rfl fun k _ => ?_
  congr 1
  apply Fin.ext
  show k.val + 512 * (b.val + 128 * c.val) = (c.val * 128 + b.val) * 512 + k.val
  omega

end Cert.CenterEma.Law

end
-- ==== Proof.Collect.lean ====
/-
  The host tail applied to the region's two result arrays is the kernel's arrangement of the center update.

  At center entry (r, d): each core's histogram entry for row r is the zero the core's first point stores plus, over the
  core's 128 batch tiles, the number of the tile's 512 labels that name r; each core's segment-sum entry is likewise the
  sum over the core's tiles of the features in column d of the samples labelled r. A tile's label k is label
  512 t + k of the batch, and its feature row k is feature row 512 t + k. Adding the two cores gives a sum over
  (core, tile, row in the tile), which is the sum over all 131072 samples: the count and the segment sum of the
  kernel's arrangement. Only commutativity and associativity of + are used.
-/
import proofs.«419548_j59416577573137_3_alg».proof.Proof.KDefs
import proofs.«419548_j59416577573137_3_alg».proof.Proof.Tail
import proofs.«419548_j59416577573137_3_alg».proof.Proof.Law
import Idealize.ShloMosaic.Lib.ValueIdx
import Idealize.ShloMosaic.Lib.Pipeline.Value
import Idealize.ShloMosaic.Lib.IdealHost
import Idealize.ShloMosaic.PureOps.Ideal.Laws

set_option maxRecDepth 16384

noncomputable section

open scoped BigOperators

namespace Cert.CenterEma.Collect

open Cert.CenterEma Cert.CenterEma.K Cert.KernelIdeal Cert.KernelIdeal.Gen Idealize.ShloMosaic Idealize.ShloMosaic.TcCoe
  Idealize.SL.Sem Idealize.ShloMosaic.ValueIdx

variable (m : (ℓ : Loc nD τ sig) → Buf (Elt Ideal) ℓ) (c : Dev nD)

/-! ## The zero blocks and the contributions inside the grid -/

/-- The block a core's first point stores into the segment-sum accumulator is zero everywhere. -/
theorem pay1_zero (y : S1x10112x256.Idx) : k0_pay1 (F := Ideal) y = 0 :=
  (show k0_pay1 (F := Ideal) y = Ideal.ofBits .f32 0x00000000#32 from rfl).trans Ideal.ofBits_zero_f32

/-- The block a core's first point stores into the histogram is zero everywhere. -/
theorem pay2_zero (y : S1x1x10112.Idx) : k0_pay2 (F := Ideal) y = 0 :=
  (show k0_pay2 (F := Ideal) y = Ideal.ofBits .f32 0x00000000#32 from rfl).trans Ideal.ofBits_zero_f32

/-- Tile `b` of core `c'` is point `128 c' + b` of the 256-point grid. -/
theorem tile_lt (c' : Fin 2) (b : Fin 128) : c'.val * 128 + b.val < cfg0.N := by
  have h1 := c'.isLt
  have h2 := b.isLt
  rw [show cfg0.N = 256 from N_0]
  omega

/-- Inside the grid the contribution indexed by a natural number is the point's. -/
theorem add2N_of_lt {t : ℕ} (h : t < cfg0.N) : add2N m c t = add2 m c ⟨t, h⟩ := dif_pos h
theorem add3N_of_lt {t : ℕ} (h : t < cfg0.N) : add3N m c t = add3 m c ⟨t, h⟩ := dif_pos h

/-! ## The accumulators after a core's last point -/

/-- After core `c'`'s last point the segment-sum accumulator holds the sum of the core's 128 contributions. -/
theorem acc2_last (c' : Fin 2) (y : S1x10112x256.Idx) :
    acc2 m c (c'.val * 128 + 127) y = ∑ b : Fin 128, add2 m c ⟨c'.val * 128 + b.val, tile_lt c' b⟩ y := by
  have hc := c'.isLt
  have h1 : (c'.val * 128 + 127) % 128 = 127 := by omega
  unfold acc2
  rw [h1, pay1_zero, zero_add, Finset.sum_range]
  refine Finset.sum_congr rfl fun b _ => ?_
  have e : c'.val * 128 + 127 - 127 + b.val = c'.val * 128 + b.val := by omega
  rw [e, add2N_of_lt m c (tile_lt c' b)]

/-- After core `c'`'s last point the histogram holds the sum of the core's 128 contributions. -/
theorem acc3_last (c' : Fin 2) (y : S1x1x10112.Idx) :
    acc3 m c (c'.val * 128 + 127) y = ∑ b : Fin 128, add3 m c ⟨c'.val * 128 + b.val, tile_lt c' b⟩ y := by
  have hc := c'.isLt
  have h1 : (c'.val * 128 + 127) % 128 = 127 := by omega
  unfold acc3
  rw [h1, pay2_zero, zero_add, Finset.sum_range]
  refine Finset.sum_congr rfl fun b _ => ?_
  have e : c'.val * 128 + 127 - 127 + b.val = c'.val * 128 + b.val := by omega
  rw [e, add3N_of_lt m c (tile_lt c' b)]

/-! ## One core's entries as sums over the core's samples -/

/-- Sample `k` of tile `b` of core `c'` is a sample of the batch. -/
theorem core_sample_lt (c' : Fin 2) (b : Fin 128) (k : Fin 512) : (c'.val * 128 + b.val) * 512 + k.val < 131072 := by
  have h1 := c'.isLt
  have h2 := b.isLt
  have h3 := k.isLt
  omega

/-- Core `c'`'s histogram entry for row `r`: how many of the core's samples are labelled `r`. -/
theorem cntCore
    (hL : ∀ (t : Fin cfg0.N) (k : Fin 512),
      tileL m c t (ix3 (0 : Fin 1) (0 : Fin 1) k) = argL m c (ix1 (⟨t.val * 512 + k.val, sample_lt t k⟩ : Fin 131072)))
    (c' : Fin 2) (r : Fin 10112) :
    arr3 m c (ix3 c' (0 : Fin 1) r)
      = ∑ b : Fin 128, ∑ k : Fin 512,
          hit r.val (argL m c (ix1 (⟨(c'.val * 128 + b.val) * 512 + k.val, core_sample_lt c' b k⟩ : Fin 131072))) := by
  show acc3 m c (c'.val * 128 + 127) (ix3 (0 : Fin 1) (0 : Fin 1) r) = _
  rw [acc3_last]
  refine Finset.sum_congr rfl fun b _ => ?_
  show ∑ k : Fin 512, hit r.val (tileL m c ⟨c'.val * 128 + b.val, tile_lt c' b⟩ (ix3 (0 : Fin 1) (0 : Fin 1) k)) = _
  refine Finset.sum_congr rfl fun k _ => ?_
  rw [hL]

/-- Core `c'`'s segment-sum entry at `(r, d)`: the sum of feature column `d` over the core's samples labelled `r`. -/
theorem segCore
    (hX : ∀ (t : Fin cfg0.N) (k : Fin 512) (d : Fin 256),
      tileX m c t (ix2 k d) = argX m c (ix2 (⟨t.val * 512 + k.val, sample_lt t k⟩ : Fin 131072) d))
    (hL : ∀ (t : Fin cfg0.N) (k : Fin 512),
      tileL m c t (ix3 (0 : Fin 1) (0 : Fin 1) k) = argL m c (ix1 (⟨t.val * 512 + k.val, sample_lt t k⟩ : Fin 131072)))
    (c' : Fin 2) (r : Fin 10112) (d : Fin 256) :
    arr2 m c (ix3 c' r d)
      = ∑ b : Fin 128, ∑ k : Fin 512,
          hit r.val (argL m c (ix1 (⟨(c'.val * 128 + b.val) * 512 + k.val, core_sample_lt c' b k⟩ : Fin 131072)))
            * argX m c (ix2 (⟨(c'.val * 128 + b.val) * 512 + k.val, core_sample_lt c' b k⟩ : Fin 131072) d) := by
  show acc2 m c (c'.val * 128 + 127) (ix3 (0 : Fin 1) r d) = _
  rw [acc2_last]
  refine Finset.sum_congr rfl fun b _ => ?_
  show ∑ k : Fin 512, hit r.val (tileL m c ⟨c'.val * 128 + b.val, tile_lt c' b⟩ (ix3 (0 : Fin 1) (0 : Fin 1) k))
      * tileX m c ⟨c'.val * 128 + b.val, tile_lt c' b⟩ (ix2 k d) = _
  refine Finset.sum_congr rfl fun k _ => ?_
  rw [hL, hX]

/-! ## The batch's count and segment sum, split by core -/

/-- The number of samples labelled `r` is the first core's count plus the second's. -/
theorem cnt_split (lab : SL.Idx → BitVec 32) (r : ℕ) :
    cnt lab r
      = (∑ b : Fin 128, ∑ k : Fin 512,
          hit r (lab (ix1 (⟨((0 : Fin 2).val * 128 + b.val) * 512 + k.val, core_sample_lt 0 b k⟩ : Fin 131072))))
        + ∑ b : Fin 128, ∑ k : Fin 512,
          hit r (lab (ix1 (⟨((1 : Fin 2).val * 128 + b.val) * 512 + k.val, core_sample_lt 1 b k⟩ : Fin 131072))) := by
  unfold cnt
  rw [Law.sum_blocks, Fin.sum_univ_two]

/-- The sum of feature column `d` over the samples labelled `r` is the first core's plus the second's. -/
theorem seg_split (X : SX.Idx → EReal) (lab : SL.Idx → BitVec 32) (r : ℕ) (d : Fin 256) :
    seg X lab r d
      = (∑ b : Fin 128, ∑ k : Fin 512,
          hit r (lab (ix1 (⟨((0 : Fin 2).val * 128 + b.val) * 512 + k.val, core_sample_lt 0 b k⟩ : Fin 131072)))
            * X (ix2 (⟨((0 : Fin 2).val * 128 + b.val) * 512 + k.val, core_sample_lt 0 b k⟩ : Fin 131072) d))
        + ∑ b : Fin 128, ∑ k : Fin 512,
          hit r (lab (ix1 (⟨((1 : Fin 2).val * 128 + b.val) * 512 + k.val, core_sample_lt 1 b k⟩ : Fin 131072)))
            * X (ix2 (⟨((1 : Fin 2).val * 128 + b.val) * 512 + k.val, core_sample_lt 1 b k⟩ : Fin 131072) d) := by
  unfold seg
  rw [Law.sum_blocks, Fin.sum_univ_two]

/-- The host tail applied to the two result arrays is the kernel's arrangement of the center update. -/
theorem collect
    (hX : ∀ (t : Fin cfg0.N) (k : Fin 512) (d : Fin 256),
      tileX m c t (ix2 k d) = argX m c (ix2 (⟨t.val * 512 + k.val, sample_lt t k⟩ : Fin 131072) d))
    (hL : ∀ (t : Fin cfg0.N) (k : Fin 512),
      tileL m c t (ix3 (0 : Fin 1) (0 : Fin 1) k) = argL m c (ix1 (⟨t.val * 512 + k.val, sample_lt t k⟩ : Fin 131072))) :
    Tail.tailTerm (F := Ideal) (arr2 m c) (arr3 m c) (argC m c) = kernelForm (argX m c) (argL m c) (argC m c) := by
  funext j
  obtain ⟨r, d, rfl⟩ : ∃ r d, j = ix2 r d := ⟨j 0, j 1, eq_ix2 j⟩
  rw [Tail.tailTerm_apply, cntCore m c hL, cntCore m c hL, segCore m c hX hL, segCore m c hX hL]
  show _ = argC m c (ix2 r d) * (1 + step * cnt (argL m c) r.val) - step * seg (argX m c) (argL m c) r.val d
  rw [cnt_split, seg_split]

end Cert.CenterEma.Collect

end
-- ==== Proof.Run.lean ====
/-
  The kernel program's run, read: its result array ends at the kernel's arrangement of the center update
  (`kernelForm` of the three argument arrays), the arguments unchanged.

  The region leaves the two accumulator arrays (`arr2`, `arr3`: per core, the zero block plus the contributions of
  the core's 128 tiles); the twenty host operations after it add the two cores, keep the first 10000 rows and combine
  with the centers (`tailTerm`); and that is `kernelForm` once the tiles are read as the samples they hold.
-/
import proofs.«419548_j59416577573137_3_alg».proof.Proof.Chain
import proofs.«419548_j59416577573137_3_alg».proof.Proof.Final
import proofs.«419548_j59416577573137_3_alg».proof.Proof.Blocks
import proofs.«419548_j59416577573137_3_alg».proof.Proof.Collect
import Idealize.ShloMosaic.Lib.StableHlo.Run

set_option maxRecDepth 16384

noncomputable section

namespace Cert.CenterEma.Run

open Idealize.ShloMosaic Idealize.ShloMosaic.TcCoe Idealize.SL.Sem Idealize.ShloMosaic.ValueIdx Idealize.ShloMosaic.StableHlo
open Cert.KernelIdeal Cert.KernelIdeal.Gen Cert.CenterEma Cert.CenterEma.K

variable (m : (ℓ : Loc nD τ sig) → Buf (Elt Ideal) ℓ) (ρ : Dev nD → PrngReg)

/-- After the region the segment-sum array, the histogram array and the centers are what the host tail reads. -/
theorem tail_eq (c : Dev nD) :
    Pipeline.afterTail₀ cfgs (dats m) 0 (V0 m) [hostOps1] c main_v17
      = Tail.tailTerm (F := Ideal) (arr2 m c) (arr3 m c) (argC m c) := by
  have e2 : Pipeline.withArrays (cfgs 0).spec c (V0 m c) (fun w => (dats m 0 c).arrAt w (cfgs 0).N) (Proc.devRef .tc main_v2_0)
      = arr2 m c :=
    (Pipeline.withArrays_arr spec0 launch0.win.arr_inj c _ _ 2).trans (Final.final2 m c (Chain.outsAt_eq m c))
  have e3 : Pipeline.withArrays (cfgs 0).spec c (V0 m c) (fun w => (dats m 0 c).arrAt w (cfgs 0).N) (Proc.devRef .tc main_v2_1)
      = arr3 m c :=
    (Pipeline.withArrays_arr spec0 launch0.win.arr_inj c _ _ 3).trans (Final.final3 m c (Chain.outsAt_eq m c))
  have eC : Pipeline.withArrays (cfgs 0).spec c (V0 m c) (fun w => (dats m 0 c).arrAt w (cfgs 0).N) (Proc.devRef .tc main_arg2)
      = argC m c :=
    (Pipeline.withArrays_of_ne _ c (V0 m c) _ main_arg2 (by exact (by decide : ∀ w, Pipeline.arrRef spec0 w ≠ main_arg2))).trans
      (V_main_arg2 m c)
  unfold Pipeline.afterTail₀
  simp only [List.flatten_cons, List.flatten_nil, List.append_nil]
  after_results
  rw [e2, e3, eC]
  rfl

/-- From any memory with zero counters: every weakly fair execution of the kernel program terminates with the result
    array at `kernelForm` of the launch contents of the three arguments, and the arguments unchanged. -/
theorem run : θ_run defs (onTc (τ := τ) (main (F := Ideal))) ⟨m, fun _ => 0, ρ⟩ fun r => ∀ c : Dev nD,
      r.2.mem ((c.tc : Thread nD τ).loc main_v17) = kernelForm (argX m c) (argL m c) (argC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans
        ((tail_eq m c).trans (Collect.collect m c (Blocks.tileX_apply m c) (Blocks.tileL_apply m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterEma.Run

end
-- ==== Proof.RefValue.lean ====
/-
  The reference program read as a value. With every label naming a center row, the index words it builds
  (a label, or the label plus 10000 when negative) are the labels themselves; the gather reads row
  `lab i` of the centers for sample `i`; the accumulating scatter adds, to center entry `(r, d)`, the
  update entries `(i, d)` of the samples `i` labelled `r`. Together: each center entry plus the scaled differences
  of the samples labelled with its row.
-/
import proofs.«419548_j59416577573137_3_alg».proof.Proof.Spec
import proofs.«419548_j59416577573137_3_alg».proof.Proof.Gen.ReferenceIdeal.Read
import Idealize.ShloMosaic.Lib.ValueIdx
import Idealize.ShloMosaic.Lib.Pipeline.Value

noncomputable section

open scoped BigOperators

namespace Cert.CenterEma.RefValue

open Cert.CenterEma Idealize.ShloMosaic Idealize.ShloMosaic.ValueIdx Cert.ReferenceIdeal
open Cert.ReferenceIdeal.Gen Cert.ReferenceIdeal.Read

/-! ## The index words -/

/-- A word whose signed value is nonnegative is not signed-less-than zero. -/
theorem slt_zero_of_nonneg (l : BitVec 32) (h : 0 ≤ l.toInt) : IntOp.cmpi .slt l 0#32 = 0#1 := by
  unfold IntOp.cmpi
  have hs : l.slt 0#32 = false := by
    simp only [BitVec.slt, BitVec.toInt_zero, decide_eq_false_iff_not, not_lt]
    exact h
  show BitVec.ofBool (l.slt 0#32) = 0#1
  rw [hs]; rfl

/-- The first selected index word is the label. -/
theorem v4_apply (lab : SL.Idx → BitVec 32) (hlab : LabelsInRange lab) (i : Fin 131072) :
    val_main_v4 (F := Ideal) lab (ix1 i) = lab (ix1 i) := by
  rw [val_main_v4_apply, val_main_v1_apply, val_main_v0_apply, val_main_c_apply,
    slt_zero_of_nonneg _ (hlab i).1, select_zero]

/-- The second selected index word is the label. -/
theorem v14_apply (lab : SL.Idx → BitVec 32) (hlab : LabelsInRange lab) (i : Fin 131072) :
    val_main_v14 (F := Ideal) lab (ix1 i) = lab (ix1 i) := by
  rw [val_main_v14_apply, val_main_v11_apply, val_main_v10_apply, val_main_c_1_apply,
    slt_zero_of_nonneg _ (hlab i).1, select_zero]

/-- The gather's start indices, as a column: entry `(i, 0)` is label `i`. -/
theorem v5_apply (lab : SL.Idx → BitVec 32) (hlab : LabelsInRange lab) (i : Fin 131072) (c : Fin 1) :
    val_main_v5 (F := Ideal) lab (ix2 i c) = lab (ix1 i) := by
  rw [val_main_v5_apply]
  have e : idx_main_v5 (ix2 i c) = ix1 i := by
    funext a; match a with | ⟨0, _⟩ => rfl
  rw [e, v4_apply lab hlab]

/-- The scatter's indices, as a column: entry `(i, 0)` is label `i`. -/
theorem v15_apply (lab : SL.Idx → BitVec 32) (hlab : LabelsInRange lab) (i : Fin 131072) (c : Fin 1) :
    val_main_v15 (F := Ideal) lab (ix2 i c) = lab (ix1 i) := by
  rw [val_main_v15_apply]
  have e : idx_main_v15 (ix2 i c) = ix1 i := by
    funext a; match a with | ⟨0, _⟩ => rfl
  rw [e, v14_apply lab hlab]

/-! ## The row gather read at an index -/

/-- The gather of rows of a `[10000, 256]` operand at a `[131072, 1]` column of start indices: result entry `(i, d)` is
    the operand at row `idx (i, 0)` (read signed, clamped into `[0, 9999]`) and column `d`. -/
theorem gather_rows_apply {α : Type} {w : Nat} (x : S10000x256.Idx → α) (idx : IVec S131072x1 w)
    (i : Fin 131072) (d : Fin 256) :
    Host.gather gather_S10000x256_S131072x1_S131072x256_1_0_n_n_0_1_1256 x idx (ix2 i d)
      = x (ix2 (⟨min (idx (ix2 i (0 : Fin 1))).toInt.toNat 9999, by omega⟩ : Fin 10000) d) := by
  unfold Host.gather
  congr 1
  funext a
  refine Fin.ext ?_
  match a with
  | ⟨0, _⟩ =>
    show gather_S10000x256_S131072x1_S131072x256_1_0_n_n_0_1_1256.start (ix2 i d) idx 0
        + gather_S10000x256_S131072x1_S131072x256_1_0_n_n_0_1_1256.batchCoord (ix2 i d) 0
        + gather_S10000x256_S131072x1_S131072x256_1_0_n_n_0_1_1256.offCoord (ix2 i d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x256_S131072x1_S131072x256_1_0_n_n_0_1_1256.startIndexMap from
      List.mem_singleton.mpr rfl)]
    have hsi : gather_S10000x256_S131072x1_S131072x256_1_0_n_n_0_1_1256.siIdx (ix2 i d)
        ⟨List.idxOf (0 : Fin 2) gather_S10000x256_S131072x1_S131072x256_1_0_n_n_0_1_1256.startIndexMap,
          List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show gather_S10000x256_S131072x1_S131072x256_1_0_n_n_0_1_1256.start (ix2 i d) idx 1
        + gather_S10000x256_S131072x1_S131072x256_1_0_n_n_0_1_1256.batchCoord (ix2 i d) 1
        + gather_S10000x256_S131072x1_S131072x256_1_0_n_n_0_1_1256.offCoord (ix2 i d) 1 = d.val
    rw [GatherDims.batchCoord_eq_zero _ _ _ List.not_mem_nil]
    unfold GatherDims.start
    rw [dif_neg (show (1 : Fin 2) ∉ gather_S10000x256_S131072x1_S131072x256_1_0_n_n_0_1_1256.startIndexMap from by
      intro h; exact absurd (List.mem_singleton.mp h) (by decide))]
    simp only [Nat.zero_add, Nat.add_zero]
    rfl

/-! ## The accumulating scatter read at an index -/

/-- On the row axis the window of update entry `(i', d')` starts at the index word `idx (i', 0)`, read signed. -/
theorem scatter_start0 {w : Nat} (idx : IVec S131072x1 w) (i' : Fin 131072) (d' : Fin 256) :
    scatter_S10000x256_S131072x1_S131072x256_1_0_0_1.start (ix2 i' d') idx 0 = (idx (ix2 i' (0 : Fin 1))).toInt := by
  unfold ScatterDims.start
  rw [dif_pos (show (0 : Fin 2) ∈ scatter_S10000x256_S131072x1_S131072x256_1_0_0_1.scatterDimsToOperandDims from List.mem_singleton.mpr rfl)]
  have hsi : scatter_S10000x256_S131072x1_S131072x256_1_0_0_1.siIdx (ix2 i' d')
      ⟨List.idxOf (0 : Fin 2) scatter_S10000x256_S131072x1_S131072x256_1_0_0_1.scatterDimsToOperandDims,
        List.idxOf_lt_length_iff.2 (List.mem_singleton.mpr rfl)⟩ = ix2 i' (0 : Fin 1) := by
    funext b; refine Fin.ext ?_
    match b with
    | ⟨0, _⟩ => rfl
    | ⟨1, _⟩ => rfl
  rw [hsi]

/-- On the column axis the window starts at `0`. -/
theorem scatter_start1 {w : Nat} (idx : IVec S131072x1 w) (i' : Fin 131072) (d' : Fin 256) :
    scatter_S10000x256_S131072x1_S131072x256_1_0_0_1.start (ix2 i' d') idx 1 = 0 := by
  unfold ScatterDims.start
  rw [dif_neg (show (1 : Fin 2) ∉ scatter_S10000x256_S131072x1_S131072x256_1_0_0_1.scatterDimsToOperandDims from by
    intro h; exact absurd (List.mem_singleton.mp h) (by decide))]

/-- The row axis is inserted: no window coordinate there. -/
theorem scatter_window0 (i' : Fin 131072) (d' : Fin 256) : scatter_S10000x256_S131072x1_S131072x256_1_0_0_1.window (ix2 i' d') 0 = 0 := rfl

/-- The column axis carries the update's column. -/
theorem scatter_window1 (i' : Fin 131072) (d' : Fin 256) : scatter_S10000x256_S131072x1_S131072x256_1_0_0_1.window (ix2 i' d') 1 = d'.val := rfl

/-- Update entry `(i', d')` lands at center entry `(r, d)` exactly when its index word, read signed, is `r` and its column is `d`. -/
theorem resultIdx_iff {w : Nat} (idx : IVec S131072x1 w) (i' : Fin 131072) (d' : Fin 256) (r : Fin 10000) (d : Fin 256) :
    scatter_S10000x256_S131072x1_S131072x256_1_0_0_1.resultIdx? (ix2 i' d') idx = some (ix2 r d) ↔ (idx (ix2 i' (0 : Fin 1))).toInt = (r.val : ℤ) ∧ d' = d := by
  have h0 : scatter_S10000x256_S131072x1_S131072x256_1_0_0_1.start (ix2 i' d') idx 0 + (scatter_S10000x256_S131072x1_S131072x256_1_0_0_1.window (ix2 i' d') 0 : ℤ) = (idx (ix2 i' (0 : Fin 1))).toInt := by
    rw [scatter_start0, scatter_window0]; simp
  have h1 : scatter_S10000x256_S131072x1_S131072x256_1_0_0_1.start (ix2 i' d') idx 1 + (scatter_S10000x256_S131072x1_S131072x256_1_0_0_1.window (ix2 i' d') 1 : ℤ) = (d'.val : ℤ) := by
    rw [scatter_start1, scatter_window1]; simp
  have hr := r.isLt
  have hd' := d'.isLt
  unfold ScatterDims.resultIdx?
  constructor
  · intro h
    split at h
    · have hf := Option.some.inj h
      have e0 : (scatter_S10000x256_S131072x1_S131072x256_1_0_0_1.start (ix2 i' d') idx 0 + (scatter_S10000x256_S131072x1_S131072x256_1_0_0_1.window (ix2 i' d') 0 : ℤ)).toNat = r.val :=
        congrArg (fun f : S10000x256.Idx => (f 0).val) hf
      have e1 : (scatter_S10000x256_S131072x1_S131072x256_1_0_0_1.start (ix2 i' d') idx 1 + (scatter_S10000x256_S131072x1_S131072x256_1_0_0_1.window (ix2 i' d') 1 : ℤ)).toNat = d.val :=
        congrArg (fun f : S10000x256.Idx => (f 1).val) hf
      rename_i hall
      have p0 := (hall 0).1
      rw [h0] at e0 p0
      rw [h1] at e1
      refine ⟨by omega, Fin.ext (by omega)⟩
    · cases h
  · rintro ⟨hr', rfl⟩
    have hall : ∀ a, 0 ≤ scatter_S10000x256_S131072x1_S131072x256_1_0_0_1.start (ix2 i' d') idx a + (scatter_S10000x256_S131072x1_S131072x256_1_0_0_1.window (ix2 i' d') a : ℤ)
        ∧ scatter_S10000x256_S131072x1_S131072x256_1_0_0_1.start (ix2 i' d') idx a + (scatter_S10000x256_S131072x1_S131072x256_1_0_0_1.window (ix2 i' d') a : ℤ) < (S10000x256.size a : ℤ) := by
      intro a
      match a with
      | ⟨0, _⟩ =>
        show 0 ≤ scatter_S10000x256_S131072x1_S131072x256_1_0_0_1.start (ix2 i' d') idx 0 + (scatter_S10000x256_S131072x1_S131072x256_1_0_0_1.window (ix2 i' d') 0 : ℤ)
          ∧ scatter_S10000x256_S131072x1_S131072x256_1_0_0_1.start (ix2 i' d') idx 0 + (scatter_S10000x256_S131072x1_S131072x256_1_0_0_1.window (ix2 i' d') 0 : ℤ) < ((10000 : ℕ) : ℤ)
        rw [h0]; omega
      | ⟨1, _⟩ =>
        show 0 ≤ scatter_S10000x256_S131072x1_S131072x256_1_0_0_1.start (ix2 i' d') idx 1 + (scatter_S10000x256_S131072x1_S131072x256_1_0_0_1.window (ix2 i' d') 1 : ℤ)
          ∧ scatter_S10000x256_S131072x1_S131072x256_1_0_0_1.start (ix2 i' d') idx 1 + (scatter_S10000x256_S131072x1_S131072x256_1_0_0_1.window (ix2 i' d') 1 : ℤ) < ((256 : ℕ) : ℤ)
        rw [h1]; omega
    rw [dif_pos hall]
    congr 1
    funext a; refine Fin.ext ?_
    match a with
    | ⟨0, _⟩ =>
      show (scatter_S10000x256_S131072x1_S131072x256_1_0_0_1.start (ix2 i' d') idx 0 + (scatter_S10000x256_S131072x1_S131072x256_1_0_0_1.window (ix2 i' d') 0 : ℤ)).toNat = r.val
      rw [h0]; omega
    | ⟨1, _⟩ =>
      show (scatter_S10000x256_S131072x1_S131072x256_1_0_0_1.start (ix2 i' d') idx 1 + (scatter_S10000x256_S131072x1_S131072x256_1_0_0_1.window (ix2 i' d') 1 : ℤ)).toNat = d'.val
      rw [h1]; omega

/-- The accumulating scatter at center entry `(r, d)`: the entry plus the update entries `(i', d)` of the samples `i'` whose
    index word, read signed, is `r`. -/
theorem scatterAdd_apply (x : S10000x256.Idx → EReal) (idx : IVec S131072x1 32) (upd : S131072x256.Idx → EReal)
    (r : Fin 10000) (d : Fin 256) :
    Host.scatterAdd (F := Ideal) (φ := .f32) scatter_S10000x256_S131072x1_S131072x256_1_0_0_1 x idx upd (ix2 r d)
      = x (ix2 r d) + ∑ i' : Fin 131072,
          if (idx (ix2 i' (0 : Fin 1))).toInt = (r.val : ℤ) then upd (ix2 i' d) else 0 := by
  show Ideal.hostScatterAdd scatter_S10000x256_S131072x1_S131072x256_1_0_0_1 x idx upd (ix2 r d) = _
  unfold Ideal.hostScatterAdd
  refine congrArg (fun t => x (ix2 r d) + t) ?_
  rw [Finset.sum_filter, sum_idx2]
  refine Finset.sum_congr rfl (fun i' _ => ?_)
  simp only [resultIdx_iff]
  by_cases h : (idx (ix2 i' (0 : Fin 1))).toInt = (r.val : ℤ)
  · simp only [h, true_and, if_true]
    rw [Finset.sum_ite_eq' Finset.univ d (fun b => upd (ix2 i' b))]
    simp
  · simp only [h, false_and, if_false, Finset.sum_const_zero]

/-! ## The reference's result -/

/-- With every label naming a center row, the reference's result is: each center entry plus the scaled differences of the samples labelled with its row. -/
theorem ref_eq (X : SX.Idx → EReal) (lab : SL.Idx → BitVec 32) (Cn : SC.Idx → EReal) (hlab : LabelsInRange lab) :
    Cert.ReferenceIdeal.Read.val_main_v16 (F := Ideal) X lab Cn = refForm X lab Cn := by
  funext j
  obtain ⟨r, d, rfl⟩ : ∃ (r : Fin 10000) (d : Fin 256), j = ix2 r d := ⟨j 0, j 1, eq_ix2 j⟩
  unfold val_main_v16
  rw [scatterAdd_apply]
  show _ = Cn (ix2 r d) + ∑ i : Fin 131072,
    if (lab (ix1 i)).toInt = (r.val : ℤ) then step * (Cn (ix2 r d) - X (ix2 i d)) else 0
  refine congrArg (fun t => Cn (ix2 r d) + t) ?_
  refine Finset.sum_congr rfl (fun i _ => ?_)
  rw [v15_apply lab hlab]
  by_cases h : (lab (ix1 i)).toInt = (r.val : ℤ)
  · rw [if_pos h, if_pos h, val_main_v9_apply, val_main_v8_apply, val_main_cst_apply, val_main_v7_apply]
    unfold val_main_v6
    rw [gather_rows_apply]
    have hrow : (⟨min (val_main_v5 (F := Ideal) lab (ix2 i (0 : Fin 1))).toInt.toNat 9999, by omega⟩ : Fin 10000) = r := by
      refine Fin.ext ?_
      show min (val_main_v5 (F := Ideal) lab (ix2 i (0 : Fin 1))).toInt.toNat 9999 = r.val
      rw [v5_apply lab hlab]
      have := r.isLt
      omega
    rw [hrow]
    rfl
  · rw [if_neg h, if_neg h]

end Cert.CenterEma.RefValue

end
-- ==== Proof.PreDecode.lean ====
/-
  The printed precondition, read back. The program joins four `all` reductions by `and`: `|X| < +∞` at every
  feature entry, `|Cn| < +∞` at every center entry, `0 ≤ lab` and `lab < 10000` (signed) at every label. That it
  returns 1 says each reduction returned 1, hence each compared element did: an extended real whose absolute value
  `max x (−x)` lies strictly below `⊤` is neither `⊤` nor `⊥`, so it is a real number; the two signed comparisons
  are the two bounds on the label read as an integer.
-/
import proofs.«419548_j59416577573137_3_alg».proof.Proof.Spec
import proofs.«419548_j59416577573137_3_alg».proof.Pre_finite_inputs
import proofs.«419548_j59416577573137_3_alg».proof.Proof.Gen.Pre_finite_inputs
import Idealize.ShloMosaic.Lib.ReduceAll
import Idealize.ShloMosaic.Lib.ValueIdx

namespace Cert.CenterEma.PreDecode

open Cert.CenterEma Idealize.ShloMosaic Idealize.ShloMosaic.ValueIdx

/-- The rank-0 shape has one index. -/
instance : Subsingleton Cert.Pre_finite_inputs.S_.Idx := ⟨fun a b => funext fun d => d.elim0⟩

/-- The pattern `0x7F800000` (exponent all ones, fraction zero, sign clear) denotes `+∞`. -/
theorem inf_f32 : Ideal.ofBits .f32 0x7F800000#32 = ⊤ := by simp [Ideal.ofBits, Ideal.ieee]

/-- `|x| < ⊤` over the extended reals excludes both infinities: `|⊤| = |⊥| = ⊤`. -/
theorem real_of_abs_lt_top (x : EReal) (h : Ideal.cmp .olt (max x (-x)) ⊤ = 1#1) : ∃ v : ℝ, x = (v : EReal) := by
  induction x using EReal.rec with
  | bot => simp [Ideal.cmp] at h
  | top => simp [Ideal.cmp] at h
  | coe v => exact ⟨v, rfl⟩

/-- One element of the comparison `|x| < +∞` (the bound broadcast from a scalar) being 1 makes that entry real. -/
theorem real_of_entry {s : Shape} (x : s.Idx → EReal)
    (hb : Cert.Pre_finite_inputs.S_.BroadcastsInDim s (![] : Fin 0 → Fin s.rank)) (i : s.Idx)
    (h : cmpf (F := Ideal) .olt (Host.absf x)
      (broadcastInDim s ![] hb (constant (F := Ideal) Cert.Pre_finite_inputs.S_ .f32 0x7F800000#32)) i = 1#1) :
    ∃ v : ℝ, x i = (v : EReal) := by
  apply real_of_abs_lt_top
  rw [← inf_f32]
  exact h

/-- The printed precondition, all ones, says: every feature and center entry is a real number, every label names a center row. -/
theorem pre_decode (X : SX.Idx → EReal) (lab : SL.Idx → BitVec 32) (Cn : SC.Idx → EReal)
    (h : Cert.Pre_finite_inputs.fn (F := Ideal) X lab Cn = fun _ => 1#1) :
    AllReal X ∧ AllReal Cn ∧ LabelsInRange lab := by
  have h0 := congrFun h ValueIdx.ix0
  dsimp only [Cert.Pre_finite_inputs.fn, Cert.Pre_finite_inputs.fn_part1, andi] at h0
  -- the conjunction of the four reductions, split from the outside in
  obtain ⟨h12, hlt⟩ := IntOp.andi_eq_one.1 h0
  obtain ⟨h8, hge⟩ := IntOp.andi_eq_one.1 h12
  obtain ⟨hX, hC⟩ := IntOp.andi_eq_one.1 h8
  refine ⟨fun i => ?_, fun i => ?_, fun i => ⟨?_, ?_⟩⟩
  · exact real_of_entry X _ i (Host.reduce_andi_all _ _ _ _ _ hX i)
  · exact real_of_entry Cn _ i (Host.reduce_andi_all _ _ _ _ _ hC i)
  · -- `lab i ≥ 0` signed: `0 ≤ (lab i).toInt`
    have e : (0#32 : BitVec 32).toInt ≤ (lab (ix1 i)).toInt :=
      IntOp.cmpi_sge.1 (Host.reduce_andi_all _ _ _ _ _ hge (ix1 i))
    rwa [show (0#32 : BitVec 32).toInt = 0 from by decide] at e
  · -- `lab i < 10000` signed: `(lab i).toInt < 10000`
    have e : (lab (ix1 i)).toInt < (10000#32 : BitVec 32).toInt :=
      IntOp.cmpi_slt.1 (Host.reduce_andi_all _ _ _ _ _ hlt (ix1 i))
    rwa [show (10000#32 : BitVec 32).toInt = 10000 from by decide] at e

end Cert.CenterEma.PreDecode
-- ==== Proof.lean ====
/-
  The certificate's five claims for the center update with a running-mean step: every sample moves the center of its
  label by `step · (center − feature)`.

  The reference gathers each sample's center, scales the difference and scatter-adds it. The kernel instead builds,
  tile by tile, a one-hot matrix of the labels and multiplies it with the feature tile (a segment sum per center) and
  with a row of ones (a histogram), accumulates both per core across the grid, and the host combines
  `center · (1 + step · count) − step · segment sum`. Over real entries and labels that name a center row the two are
  the same function: distribute `step` over each difference and collect the `count` copies of the center.

  The labels' range is part of the precondition: a label outside `[0, 10000)` indexes the centers out of range in the
  reference itself.
-/
import proofs.«419548_j59416577573137_3_alg».proof.Defs
import proofs.«419548_j59416577573137_3_alg».proof.Proof.Gen.Kernel
import proofs.«419548_j59416577573137_3_alg».proof.Proof.Gen.Kernel.Skeleton
import proofs.«419548_j59416577573137_3_alg».proof.Proof.Gen.Kernel.Launch
import proofs.«419548_j59416577573137_3_alg».proof.Proof.Gen.Kernel.Points
import proofs.«419548_j59416577573137_3_alg».proof.Proof.Gen.Kernel.Frame
import proofs.«419548_j59416577573137_3_alg».proof.Proof.Gen.KernelIdeal
import proofs.«419548_j59416577573137_3_alg».proof.Proof.Gen.KernelIdeal.Skeleton
import proofs.«419548_j59416577573137_3_alg».proof.Proof.Gen.KernelIdeal.Launch
import proofs.«419548_j59416577573137_3_alg».proof.Proof.Gen.KernelIdeal.Points
import proofs.«419548_j59416577573137_3_alg».proof.Proof.Gen.KernelIdeal.Frame
import proofs.«419548_j59416577573137_3_alg».proof.Proof.Gen.ReferenceIdeal
import proofs.«419548_j59416577573137_3_alg».proof.Proof.Gen.Pre_finite_inputs
import proofs.«419548_j59416577573137_3_alg».proof.Proof.Gen.ReferenceIdeal.Run
import proofs.«419548_j59416577573137_3_alg».proof.Proof.Gen.ReferenceIdeal.Read
import proofs.«419548_j59416577573137_3_alg».proof.Proof.Run
import proofs.«419548_j59416577573137_3_alg».proof.Proof.RefValue
import proofs.«419548_j59416577573137_3_alg».proof.Proof.Law
import proofs.«419548_j59416577573137_3_alg».proof.Proof.PreDecode
import Idealize.ShloMosaic.Adequacy
import Idealize.ShloMosaic.Init

noncomputable section

namespace Cert.Proof

open Idealize.ShloMosaic Idealize.SL.Sem Cert.CenterEma

/-- The two kernel programs run and keep their arguments: the generated frames. -/
theorem frame_k : Cert.frame_Kernel := fun m ρ _ => Cert.Kernel.Gen.frame m ρ
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `kernelForm` of the arguments: the kernel by its run read back, the reference by its run, the
    gather and the scatter read at an index (`refForm`), and the law that joins the two arrangements, which uses the
    precondition: real entries, labels in range. -/
theorem algebraic : Cert.algebraic_KernelIdeal_ReferenceIdeal := by
  intro m ρ m' ρ' hpre hagree
  refine ⟨fun c => kernelForm (K.argX m c) (K.argL m c) (K.argC m c), Cert.CenterEma.Run.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hC, hlab⟩ := PreDecode.pre_decode (K.argX m c) (K.argL m c) (K.argC m c) (hpre c)
  rw [(hagree c).1, (hagree c).2.1, (hagree c).2.2, Cert.ReferenceIdeal.Read.val_main_v16_eq]
  exact (RefValue.ref_eq (K.argX m c) (K.argL m c) (K.argC m c) hlab).trans
    (Law.forms_agree (K.argX m c) (K.argL m c) (K.argC m c) hX hC hlab)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
